-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x2048 : Shape := ⟨3, ![2, 2048, 2048]⟩
abbrev S2048x16 : Shape := ⟨2, ![2048, 16]⟩
abbrev S16x8192 : Shape := ⟨2, ![16, 8192]⟩
abbrev S8192x2048 : Shape := ⟨2, ![8192, 2048]⟩
abbrev S2048x8192 : Shape := ⟨2, ![2048, 8192]⟩
abbrev S2048 : Shape := ⟨1, ![2048]⟩
abbrev S_ : Shape := ⟨0, ![]⟩

class Facts : Prop where
  bcast_S_S2x2048x2048 : S_.BroadcastsInDim S2x2048x2048 (![] : Fin 0 → Fin S2x2048x2048.rank)
  reducesTo_S2x2048x2048_S_d0_1_2 : S2x2048x2048.ReducesTo [0, 1, 2] S_
  h_S_ : 0 < S_.numel
  bcast_S_S2048x16 : S_.BroadcastsInDim S2048x16 (![] : Fin 0 → Fin S2048x16.rank)
  reducesTo_S2048x16_S_d0_1 : S2048x16.ReducesTo [0, 1] S_
  bcast_S_S16x8192 : S_.BroadcastsInDim S16x8192 (![] : Fin 0 → Fin S16x8192.rank)
  reducesTo_S16x8192_S_d0_1 : S16x8192.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S8192x2048 .f32) (main_arg5 : FVec F S8192x2048 .f32) (main_arg6 : FVec F S2048x8192 .f32) (main_arg7 : FVec F S2048 .f32) (main_v13 : IVec S_ 1) (main_v16 : IVec S16x8192 1) : IVec S_ 1 :=
  let main_c_5 : IVec S_ 1 := constantI S_ 1 1#1
  let main_v17 : IVec S_ 1 := (fun x v => Host.reduce IntOp.andi x v reducesTo_S16x8192_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048x8192 .f32 := Host.absf main_arg6
  let main_cst_10 : FVec F S_ .f32 := constant S_ .f32 0x7F800000#32
  let main_v30 : FVec F S2048x8192 .f32 := broadcastInDim S2048x8192 ![] bcast_S_S2048x8192 main_cst_10
  let main_v31 : IVec S2048x8192 1 := cmpf .olt main_v29 main_v30
  let main_c_11 : IVec S_ 1 := constantI S_ 1 1#1
  let main_v32 : IVec S_ 1 := (fun x v => Host.reduce IntOp.andi x v reducesTo_S2048x8192_S_d0_1 h_S_) main_v31 main_c_11
  let main_v33 : IVec S_ 1 := andi main_v28 main_v32
  fn_part2 (F := F) main_arg7 main_v33

def fn {F : FTy → Type} [FloatOps F] (main_arg0 : FVec F S2x2048x2048 .f32) (main_arg1 : FVec F S2x2048x2048 .f32) (main_arg2 : FVec F S2048x16 .f32) (main_arg3 : FVec F S16x8192 .f32) (main_arg4 : FVec F S8192x2048 .f32) (main_arg5 : FVec F S8192x2048 .f32) (main_arg6 : FVec F S2048x8192 .f32) (main_arg7 : FVec F S2048 .f32) : IVec S_ 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_c : IVec S_ 1 := constantI S_ 1 1#1
  let main_v3 : IVec S_ 1 := (fun x v => Host.reduce IntOp.andi x v reducesTo_S2x2048x2048_S_d0_1_2 h_S_) main_v2 main_c
  let main_v4 : FVec F S2x2048x2048 .f32 := Host.absf main_arg1
  let main_cst_0 : FVec F S_ .f32 := constant S_ .f32 0x7F800000#32
  let main_v5 : FVec F S2x2048x2048 .f32 := broadcastInDim S2x2048x2048 ![] bcast_S_S2x2048x2048 main_cst_0
  let main_v6 : IVec S2x2048x2048 1 := cmpf .olt main_v4 main_v5
  let main_c_1 : IVec S_ 1 := constantI S_ 1 1#1
  let main_v7 : IVec S_ 1 := (fun x v => Host.reduce IntOp.andi x v reducesTo_S2x2048x2048_S_d0_1_2 h_S_) main_v6 main_c_1
  let main_v8 : IVec S_ 1 := andi main_v3 main_v7
  let main_v9 : FVec F S2048x16 .f32 := Host.absf main_arg2
  let main_cst_2 : FVec F S_ .f32 := constant S_ .f32 0x7F800000#32
  let main_v10 : FVec F S2048x16 .f32 := broadcastInDim S2048x16 ![] bcast_S_S2048x16 main_cst_2
  let main_v11 : IVec S2048x16 1 := cmpf .olt main_v9 main_v10
  let main_c_3 : IVec S_ 1 := constantI S_ 1 1#1
  let main_v12 : IVec S_ 1 := (fun x v => Host.reduce IntOp.andi x v reducesTo_S2048x16_S_d0_1 h_S_) main_v11 main_c_3
  let main_v13 : IVec S_ 1 := andi main_v8 main_v12
  let main_v14 : FVec F S16x8192 .f32 := Host.absf main_arg3
  let main_cst_4 : FVec F S_ .f32 := constant S_ .f32 0x7F800000#32
  let main_v15 : FVec F S16x8192 .f32 := broadcastInDim S16x8192 ![] bcast_S_S16x8192 main_cst_4
  let main_v16 : IVec S16x8192 1 := cmpf .olt main_v14 main_v15
  fn_part1 (F := F) main_arg4 main_arg5 main_arg6 main_arg7 main_v13 main_v16
-- ==== Kernel.lean ====
abbrev S2x2048x2048 : Shape := ⟨3, ![2, 2048, 2048]⟩
abbrev S2048x16 : Shape := ⟨2, ![2048, 16]⟩
abbrev S16x8192 : Shape := ⟨2, ![16, 8192]⟩
abbrev S8192x2048 : Shape := ⟨2, ![8192, 2048]⟩
abbrev S2048x8192 : Shape := ⟨2, ![2048, 8192]⟩
abbrev S2048 : Shape := ⟨1, ![2048]⟩
abbrev S4096x2048 : Shape := ⟨2, ![4096, 2048]⟩
abbrev S1x2048 : Shape := ⟨2, ![1, 2048]⟩
abbrev S256x2048 : Shape := ⟨2, ![256, 2048]⟩
abbrev S16x512 : Shape := ⟨2, ![16, 512]⟩
abbrev S512x2048 : Shape := ⟨2, ![512, 2048]⟩
abbrev S2048x512 : Shape := ⟨2, ![2048, 512]⟩
abbrev S256 : Shape := ⟨1, ![256]⟩
abbrev S256x1 : Shape := ⟨2, ![256, 1]⟩
abbrev S256x16 : Shape := ⟨2, ![256, 16]⟩
abbrev S256x512 : Shape := ⟨2, ![256, 512]⟩

abbrev nBuf : Space → Nat
  | .hbm => 18
  | .vmem => 17
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2048x16, .f32⟩
  | .hbm, ⟨3, _⟩ => ⟨S16x8192, .f32⟩
  | .hbm, ⟨4, _⟩ => ⟨S8192x2048, .f32⟩
  | .hbm, ⟨5, _⟩ => ⟨S8192x2048, .f32⟩
  | .hbm, ⟨6, _⟩ => ⟨S2048x8192, .f32⟩
  | .hbm, ⟨7, _⟩ => ⟨S2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S2048x16, .bf16⟩
  | .hbm, ⟨12, _⟩ => ⟨S16x8192, .bf16⟩
  | .hbm, ⟨13, _⟩ => ⟨S8192x2048, .bf16⟩
  | .hbm, ⟨14, _⟩ => ⟨S8192x2048, .bf16⟩
  | .hbm, ⟨15, _⟩ => ⟨S2048x8192, .bf16⟩
  | .hbm, ⟨16, _⟩ => ⟨S4096x2048, .f32⟩
  | .hbm, ⟨17, _⟩ => ⟨S2x2048x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S2048x16, .bf16⟩
  | .local _ .vmem, ⟨6, _⟩ => ⟨S16x512, .bf16⟩
  | .local _ .vmem, ⟨7, _⟩ => ⟨S16x512, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S2048x512, .bf16⟩
  | .local _ .vmem, ⟨13, _⟩ => ⟨S2048x512, .bf16⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_29 : BitVec 32 := 0#32
  let v56 : BitVec 1 := Scalar.cmpi .ne v55 c0_i32_29
  v56

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  shapeCasts_S2x2048x2048_S4096x2048 : S2x2048x2048.ShapeCasts S4096x2048
  shapeCasts_S2048_S1x2048 : S2048.ShapeCasts S1x2048
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S4096x2048_S2x2048x2048 : S4096x2048.ShapeCasts S2x2048x2048
  dot_S256x2048_S2048x16_S256x16_1_0_0_1_n_n_wf : DotDims.WF S256x2048 S2048x16 S256x16 [1] [0] [0] [1] [] []
  dot_S256x16_S16x512_S256x512_1_0_0_1_n_n_wf : DotDims.WF S256x16 S16x512 S256x512 [1] [0] [0] [1] [] []
  dot_S256x2048_S512x2048_S256x512_1_1_0_0_n_n_wf : DotDims.WF S256x2048 S512x2048 S256x512 [1] [1] [0] [0] [] []
  dot_S256x512_S2048x512_S256x2048_1_1_0_0_n_n_wf : DotDims.WF S256x512 S2048x512 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x16.size a ≤ S2048x16.size a
  hwx0_3 : ∀ i : grid0.Coords, EltTy.bits .bf16 = 32 ∨ (Rect.block (s := S2048x16) S2048x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x512.size a ≤ S16x8192.size a
  hwx0_4 : ∀ i : grid0.Coords, EltTy.bits .bf16 = 32 ∨ (Rect.block (s := S16x8192) S16x512.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S8192x2048.size a
  hwx0_6 : ∀ i : grid0.Coords, EltTy.bits .bf16 = 32 ∨ (Rect.block (s := S8192x2048) S512x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x512.size a ≤ S2048x8192.size a
  hwx0_7 : ∀ i : grid0.Coords, EltTy.bits .bf16 = 32 ∨ (Rect.block (s := S2048x8192) S2048x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .f32 = 32 ∨ (Rect.block (s := S4096x2048) S256x2048.size (cc0_transform_8 i) (hinb0_8 i)).WholeWords (EltTy.packing .f32)

variable [Facts₀]

def dot_S256x2048_S2048x16_S256x16_1_0_0_1_n_n : DotDims S256x2048 S2048x16 S256x16 where
  lhsContracting := [1]
  rhsContracting := [0]
  lhsNonContracting := [0]
  rhsNonContracting := [1]
  lhsBatch := []
  rhsBatch := []
  wf := dot_S256x2048_S2048x16_S256x16_1_0_0_1_n_n_wf
def dot_S256x16_S16x512_S256x512_1_0_0_1_n_n : DotDims S256x16 S16x512 S256x512 where
  lhsContracting := [1]
  rhsContracting := [0]
  lhsNonContracting := [0]
  rhsNonContracting := [1]
  lhsBatch := []
  rhsBatch := []
  wf := dot_S256x16_S16x512_S256x512_1_0_0_1_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf
def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S16x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2048x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S2x2048x2048 : Shape := ⟨3, ![2, 2048, 2048]⟩
abbrev S2048x16 : Shape := ⟨2, ![2048, 16]⟩
abbrev S16x8192 : Shape := ⟨2, ![16, 8192]⟩
abbrev S8192x2048 : Shape := ⟨2, ![8192, 2048]⟩
abbrev S2048x8192 : Shape := ⟨2, ![2048, 8192]⟩
abbrev S2048 : Shape := ⟨1, ![2048]⟩
abbrev S2x2048x16 : Shape := ⟨3, ![2, 2048, 16]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x2048x8192 : Shape := ⟨3, ![2, 2048, 8192]⟩

abbrev nBuf : Space → Nat
  | .hbm => 47
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .f32⟩
  | .hbm, ⟨2, _⟩ => ⟨S2048x16, .f32⟩
  | .hbm, ⟨3, _⟩ => ⟨S16x8192, .f32⟩
  | .hbm, ⟨4, _⟩ => ⟨S8192x2048, .f32⟩
  | .hbm, ⟨5, _⟩ => ⟨S8192x2048, .f32⟩
  | .hbm, ⟨6, _⟩ => ⟨S2048x8192, .f32⟩
  | .hbm, ⟨7, _⟩ => ⟨S2048, .f32⟩
  | .hbm, ⟨8, _⟩ => ⟨S2x2048x16, .f32⟩
  | .hbm, ⟨9, _⟩ => ⟨S2x2048x16, .f32⟩
  | .hbm, ⟨10, _⟩ => ⟨S_, .f32⟩
  | .hbm, ⟨11, _⟩ => ⟨S2x2048x16, .f32⟩
  | .hbm, ⟨12, _⟩ => ⟨S2x2048x16, .f32⟩
  | .hbm, ⟨13, _⟩ => ⟨S2x2048x2048, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x2048, .f32⟩
  | .hbm, ⟨25, _⟩ => ⟨S2x2048x2048, .f32⟩
  | .hbm, ⟨26, _⟩ => ⟨S1x1x2048, .f32⟩
  | .hbm, ⟨27, _⟩ => ⟨S2x2048x2048, .f32⟩
  | .hbm, ⟨28, _⟩ => ⟨S2x2048x2048, .f32⟩
  | .hbm, ⟨29, _⟩ => ⟨S2x2048x16, .f32⟩
  | .hbm, ⟨30, _⟩ => ⟨S2x2048x16, .f32⟩
  | .hbm, ⟨31, _⟩ => ⟨S2x2048x8192, .f32⟩
  | .hbm, ⟨32, _⟩ => ⟨S2x2048x8192, .f32⟩
  | .hbm, ⟨33, _⟩ => ⟨S2x2048x8192, .f32⟩
  | .hbm, ⟨34, _⟩ => ⟨S2x2048x8192, .f32⟩
  | .hbm, ⟨35, _⟩ => ⟨S2x2048x8192, .f32⟩
  | .hbm, ⟨36, _⟩ => ⟨S_, .f32⟩
  | .hbm, ⟨37, _⟩ => ⟨S2x2048x8192, .f32⟩
  | .hbm, ⟨38, _⟩ => ⟨S2x2048x8192, .f32⟩
  | .hbm, ⟨39, _⟩ => ⟨S_, .f32⟩
  | .hbm, ⟨40, _⟩ => ⟨S2x2048x8192, .f32⟩
  | .hbm, ⟨41, _⟩ => ⟨S2x2048x8192, .f32⟩
  | .hbm, ⟨42, _⟩ => ⟨S2x2048x8192, .f32⟩
  | .hbm, ⟨43, _⟩ => ⟨S2x2048x8192, .f32⟩
  | .hbm, ⟨44, _⟩ => ⟨S2x2048x8192, .f32⟩
  | .hbm, ⟨45, _⟩ => ⟨S2x2048x2048, .f32⟩
  | .hbm, ⟨46, _⟩ => ⟨S2x2048x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]

class Facts₀ : Prop where
  bcast_S_S2x2048x16 : S_.BroadcastsInDim S2x2048x16 (![] : Fin 0 → Fin S2x2048x16.rank)
  reducesTo_S2x2048x2048_S2x2048_d2 : S2x2048x2048.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x2048_0_1_2 : S2x2048x1.BroadcastsInDim S2x2048x2048 (![0, 1, 2] : Fin 3 → Fin S2x2048x2048.rank)
  bcast_S2048_S1x1x2048_2 : S2048.BroadcastsInDim S1x1x2048 (![2] : Fin 1 → Fin S1x1x2048.rank)
  bcast_S1x1x2048_S2x2048x2048_0_1_2 : S1x1x2048.BroadcastsInDim S2x2048x2048 (![0, 1, 2] : Fin 3 → Fin S2x2048x2048.rank)
  bcast_S_S2x2048x8192 : S_.BroadcastsInDim S2x2048x8192 (![] : Fin 0 → Fin S2x2048x8192.rank)
  dot_S2x2048x2048_S2048x16_S2x2048x16_2_0_01_1_n_n_wf : DotDims.WF S2x2048x2048 S2048x16 S2x2048x16 [2] [0] [0, 1] [1] [] []
  dot_S2x2048x16_S16x8192_S2x2048x8192_2_0_01_1_n_n_wf : DotDims.WF S2x2048x16 S16x8192 S2x2048x8192 [2] [0] [0, 1] [1] [] []
  dot_S2x2048x2048_S8192x2048_S2x2048x8192_2_1_01_0_n_n_wf : DotDims.WF S2x2048x2048 S8192x2048 S2x2048x8192 [2] [1] [0, 1] [0] [] []
  dot_S2x2048x8192_S2048x8192_S2x2048x2048_2_1_01_0_n_n_wf : DotDims.WF S2x2048x8192 S2048x8192 S2x2048x2048 [2] [1] [0, 1] [0] [] []

variable [Facts₀]

def dot_S2x2048x2048_S2048x16_S2x2048x16_2_0_01_1_n_n : DotDims S2x2048x2048 S2048x16 S2x2048x16 where
  lhsContracting := [2]
  rhsContracting := [0]
  lhsNonContracting := [0, 1]
  rhsNonContracting := [1]
  lhsBatch := []
  rhsBatch := []
  wf := dot_S2x2048x2048_S2048x16_S2x2048x16_2_0_01_1_n_n_wf
def dot_S2x2048x16_S16x8192_S2x2048x8192_2_0_01_1_n_n : DotDims S2x2048x16 S16x8192 S2x2048x8192 where
  lhsContracting := [2]
  rhsContracting := [0]
  lhsNonContracting := [0, 1]
  rhsNonContracting := [1]
  lhsBatch := []
  rhsBatch := []
  wf := dot_S2x2048x16_S16x8192_S2x2048x8192_2_0_01_1_n_n_wf
def dot_S2x2048x2048_S8192x2048_S2x2048x8192_2_1_01_0_n_n : DotDims S2x2048x2048 S8192x2048 S2x2048x8192 where
  lhsContracting := [2]
  rhsContracting := [1]
  lhsNonContracting := [0, 1]
  rhsNonContracting := [0]
  lhsBatch := []
  rhsBatch := []
  wf := dot_S2x2048x2048_S8192x2048_S2x2048x8192_2_1_01_0_n_n_wf
def dot_S2x2048x8192_S2048x8192_S2x2048x2048_2_1_01_0_n_n : DotDims S2x2048x8192 S2048x8192 S2x2048x2048 where
  lhsContracting := [2]
  rhsContracting := [1]
  lhsNonContracting := [0, 1]
  rhsNonContracting := [0]
  lhsBatch := []
  rhsBatch := []
  wf := dot_S2x2048x8192_S2048x8192_S2x2048x2048_2_1_01_0_n_n_wf

class Facts : Prop extends Facts₀ where

variable [Facts]
-- ==== Proof.RowSpec.lean ====
/-
  The function both programs compute, one token row at a time.

  A token is a row x of 2048 features, with a second row u (the attention output) beside it. With
  inv = rsqrt (sum_d x_d^2 / 2048 + eps), the normalised row is h_d = x_d * inv * gamma_d. The rank-16 path is
  p_r = (sum_d h_d A_dr) * (c * tanh (sum_d u_d A_dr)) with c the literal 0.1. For a hidden feature f with
  gate row W_in[f], up row W_up[f] and column Bm[.,f]:
    g_f = sum_d h_d W_in[f,d] + sum_r p_r Bm[r,f],   y_f = g_f * logistic g_f * sum_d h_d W_up[f,d],
  and the result row is x_d + sum_f y_f W_down[d,f].
  The only law used between the two programs is that a sum over the 8192 hidden features is the sum over 16
  consecutive tiles of 512 of them; it holds in any commutative additive monoid, so no finiteness is needed.
-/
import Idealize.ShloMosaic.PureOps.Ideal
import Idealize.ShloMosaic.Lib.ValueIdx

noncomputable section

open scoped BigOperators
open Idealize.ShloMosaic

namespace Cert.GatedMlp

/-- A row of the model dimension. -/
abbrev Row := Fin 2048 → EReal

/-- The divisor of the mean (2048.0), the epsilon under the root and the modulation scale, as the words both
    programs carry. -/
def meanDen : EReal := Ideal.ofBits .f32 0x45000000#32
def eps : EReal := Ideal.ofBits .f32 0x358637BD#32
def modScale : EReal := Ideal.ofBits .f32 0x3DCCCCCD#32

/-- The reciprocal root mean square of a row. -/
def invRms (x : Row) : EReal := Ideal.rsqrt (Ideal.div (∑ d, x d * x d) meanDen + eps)

/-- The normalised, scaled row. -/
def normed (x gam : Row) : Row := fun d => x d * invRms x * gam d

/-- A row against the 16 columns of the low-rank factor. -/
def proj (h : Row) (A : Fin 2048 → Fin 16 → EReal) (r : Fin 16) : EReal := ∑ d, h d * A d r

/-- The modulated low-rank coefficients of a token. -/
def premod (x u gam : Row) (A : Fin 2048 → Fin 16 → EReal) (r : Fin 16) : EReal :=
  proj (normed x gam) A r * (modScale * Ideal.tanh (proj u A r))

/-- The gate's pre-activation at one hidden feature: its gate row against the normalised token, plus the low-rank
    correction through that feature's column. -/
def gatePre (x u gam : Row) (A : Fin 2048 → Fin 16 → EReal) (bcol : Fin 16 → EReal) (win : Row) : EReal :=
  (∑ d, normed x gam d * win d) + ∑ r, premod x u gam A r * bcol r

/-- The gated hidden activation at one hidden feature. -/
def gated (x u gam : Row) (A : Fin 2048 → Fin 16 → EReal) (bcol : Fin 16 → EReal) (win wup : Row) : EReal :=
  gatePre x u gam A bcol win * Ideal.logistic (gatePre x u gam A bcol win) * ∑ d, normed x gam d * wup d

/-- The result row of a token. -/
def rowOut (x u gam : Row) (A : Fin 2048 → Fin 16 → EReal) (Bm : Fin 16 → Fin 8192 → EReal)
    (Win Wup : Fin 8192 → Row) (Wd : Fin 2048 → Fin 8192 → EReal) (d : Fin 2048) : EReal :=
  x d + ∑ f : Fin 8192, gated x u gam A (fun r => Bm r f) (Win f) (Wup f) * Wd d f

/-- Hidden feature number `f'` of tile `j` (total in `j`: past the sixteenth tile it wraps, and is never used). -/
def tileIdx (j : ℕ) (f' : Fin 512) : Fin 8192 := ⟨(512 * j + f'.val) % 8192, Nat.mod_lt _ (by norm_num)⟩

theorem tileIdx_val {j : ℕ} (hj : j < 16) (f' : Fin 512) : (tileIdx j f').val = 512 * j + f'.val := by
  have := f'.isLt
  exact Nat.mod_eq_of_lt (by omega)

/-- A sum over the hidden features, tile by tile. -/
theorem sum_tiles {M : Type*} [AddCommMonoid M] (g : Fin 8192 → M) :
    ∑ f, g f = ∑ s ∈ Finset.range 16, ∑ f' : Fin 512, g (tileIdx s f') := by
  rw [Finset.sum_range]
  have e : Fin 16 × Fin 512 ≃ Fin 8192 := finProdFinEquiv
  rw [← Equiv.sum_comp (finProdFinEquiv : Fin 16 × Fin 512 ≃ Fin 8192) g, Fintype.sum_prod_type]
  refine Finset.sum_congr rfl fun j _ => Finset.sum_congr rfl fun f' _ => congrArg g (Fin.ext ?_)
  rw [tileIdx_val j.isLt]
  simp [finProdFinEquiv]
  omega

/-- The result row with the hidden features grouped into tiles. -/
theorem rowOut_tiles (x u gam : Row) (A : Fin 2048 → Fin 16 → EReal) (Bm : Fin 16 → Fin 8192 → EReal)
    (Win Wup : Fin 8192 → Row) (Wd : Fin 2048 → Fin 8192 → EReal) (d : Fin 2048) :
    rowOut x u gam A Bm Win Wup Wd d
      = x d + ∑ s ∈ Finset.range 16, ∑ f' : Fin 512,
          gated x u gam A (fun r => Bm r (tileIdx s f')) (Win (tileIdx s f')) (Wup (tileIdx s f')) * Wd d (tileIdx s f') := by
  unfold rowOut
  rw [sum_tiles]

end Cert.GatedMlp

end
-- ==== Proof.ResultArray.lean ====
/-
  The result as an array. The reference works on [batch, position, feature] arrays; the kernel's call works on the
  token-major [token, feature] arrays (token = 2048 * batch + position) and on its own copies of the weights. Both are
  the row function `rowOut` applied to the token's two rows.
-/
import proofs.«126605_j3994319585427_1_alg».proof.Proof.RowSpec
import Idealize.ShloMosaic.Lib.ValueIdx

noncomputable section

open scoped BigOperators
open Idealize.ShloMosaic Idealize.ShloMosaic.ValueIdx

namespace Cert.GatedMlp

/-- Row `r` of a matrix, column `q` of a matrix, and a matrix as a function of its two coordinates. -/
abbrev matRow {a b : ℕ} (v : (⟨2, ![a, b]⟩ : Shape).Idx → EReal) (r : Fin a) : Fin b → EReal := fun d => v (ix2 r d)
abbrev matCol {a b : ℕ} (v : (⟨2, ![a, b]⟩ : Shape).Idx → EReal) (q : Fin b) : Fin a → EReal := fun p => v (ix2 p q)
abbrev matFn {a b : ℕ} (v : (⟨2, ![a, b]⟩ : Shape).Idx → EReal) : Fin a → Fin b → EReal := fun p q => v (ix2 p q)

/-- Token number `r` of token block `i` (total in `i`: past the sixteenth block it wraps, and is never used). -/
def rowIdx (i : ℕ) (r : Fin 256) : Fin 4096 := ⟨(256 * i + r.val) % 4096, Nat.mod_lt _ (by norm_num)⟩

theorem rowIdx_val {i : ℕ} (hi : i < 16) (r : Fin 256) : (rowIdx i r).val = 256 * i + r.val := by
  have := r.isLt
  exact Nat.mod_eq_of_lt (by omega)

/-- Token number of (batch, position). -/
def tokenIdx (b : Fin 2) (s : Fin 2048) : Fin 4096 := ⟨2048 * b.val + s.val, by have := b.isLt; have := s.isLt; omega⟩

theorem tokenIdx_val (b : Fin 2) (s : Fin 2048) : (tokenIdx b s).val = 2048 * b.val + s.val := rfl

/-- The result over [batch, position, feature] arrays, arguments in the programs' order: the token's row, the
    attention row, the low-rank factors, the gate, up and down projections, the norm weight. -/
def result (X U : (⟨3, ![2, 2048, 2048]⟩ : Shape).Idx → EReal) (A : (⟨2, ![2048, 16]⟩ : Shape).Idx → EReal)
    (Bm : (⟨2, ![16, 8192]⟩ : Shape).Idx → EReal) (Win Wup : (⟨2, ![8192, 2048]⟩ : Shape).Idx → EReal)
    (Wd : (⟨2, ![2048, 8192]⟩ : Shape).Idx → EReal) (gam : (⟨1, ![2048]⟩ : Shape).Idx → EReal) :
    (⟨3, ![2, 2048, 2048]⟩ : Shape).Idx → EReal :=
  fun i => rowOut (fun d => X (ix3 ⟨(i 0).val, (i 0).isLt⟩ ⟨(i 1).val, (i 1).isLt⟩ d))
    (fun d => U (ix3 ⟨(i 0).val, (i 0).isLt⟩ ⟨(i 1).val, (i 1).isLt⟩ d)) (fun d => gam (ix1 d))
    (matFn A) (matFn Bm) (matFn Win) (matFn Wup) (matFn Wd) ⟨(i 2).val, (i 2).isLt⟩

theorem result_ix3 (X U : (⟨3, ![2, 2048, 2048]⟩ : Shape).Idx → EReal) (A : (⟨2, ![2048, 16]⟩ : Shape).Idx → EReal)
    (Bm : (⟨2, ![16, 8192]⟩ : Shape).Idx → EReal) (Win Wup : (⟨2, ![8192, 2048]⟩ : Shape).Idx → EReal)
    (Wd : (⟨2, ![2048, 8192]⟩ : Shape).Idx → EReal) (gam : (⟨1, ![2048]⟩ : Shape).Idx → EReal)
    (b : Fin 2) (s : Fin 2048) (d : Fin 2048) :
    result X U A Bm Win Wup Wd gam (ix3 b s d)
      = rowOut (fun d' => X (ix3 b s d')) (fun d' => U (ix3 b s d')) (fun d' => gam (ix1 d'))
          (matFn A) (matFn Bm) (matFn Win) (matFn Wup) (matFn Wd) d := rfl

/-- The result over the token-major arrays the kernel's call reads, in its operands' order: tokens, attention
    rows, the norm weight as a one-row matrix, then the factors and projections. -/
def flatResult (X U : (⟨2, ![4096, 2048]⟩ : Shape).Idx → EReal) (g : (⟨2, ![1, 2048]⟩ : Shape).Idx → EReal)
    (A : (⟨2, ![2048, 16]⟩ : Shape).Idx → EReal) (Bm : (⟨2, ![16, 8192]⟩ : Shape).Idx → EReal)
    (Win Wup : (⟨2, ![8192, 2048]⟩ : Shape).Idx → EReal) (Wd : (⟨2, ![2048, 8192]⟩ : Shape).Idx → EReal) :
    (⟨2, ![4096, 2048]⟩ : Shape).Idx → EReal :=
  fun i => rowOut (matRow X ⟨(i 0).val, (i 0).isLt⟩) (matRow U ⟨(i 0).val, (i 0).isLt⟩) (matRow g 0)
    (matFn A) (matFn Bm) (matFn Win) (matFn Wup) (matFn Wd) ⟨(i 1).val, (i 1).isLt⟩

theorem flatResult_ix2 (X U : (⟨2, ![4096, 2048]⟩ : Shape).Idx → EReal) (g : (⟨2, ![1, 2048]⟩ : Shape).Idx → EReal)
    (A : (⟨2, ![2048, 16]⟩ : Shape).Idx → EReal) (Bm : (⟨2, ![16, 8192]⟩ : Shape).Idx → EReal)
    (Win Wup : (⟨2, ![8192, 2048]⟩ : Shape).Idx → EReal) (Wd : (⟨2, ![2048, 8192]⟩ : Shape).Idx → EReal)
    (n : Fin 4096) (d : Fin 2048) :
    flatResult X U g A Bm Win Wup Wd (ix2 n d)
      = rowOut (matRow X n) (matRow U n) (matRow g 0) (matFn A) (matFn Bm) (matFn Win) (matFn Wup) (matFn Wd) d := rfl

end Cert.GatedMlp

end
-- ==== Proof.RefIsSpec.lean ====
/-
  The reference is the specification: read one operation at a time, each stage of the reference at an index is the
  corresponding row function of the token at that (batch, position).
-/
import proofs.«126605_j3994319585427_1_alg».proof.Proof.Gen.ReferenceIdeal.Read
import proofs.«126605_j3994319585427_1_alg».proof.Proof.ResultArray

noncomputable section

open scoped BigOperators

namespace Cert.GatedMlp

open Idealize.ShloMosaic Idealize.ShloMosaic.ValueIdx
open Cert.ReferenceIdeal Cert.ReferenceIdeal.Read

/-- The word of 1.0 denotes one. -/
theorem one_word : Ideal.ofBits .f32 0x3F800000#32 = 1 := IdealRules.sign_bit.ideal_onePat .f32

section stages

variable (x0 x1 : (⟨S2x2048x2048, .f32⟩ : BufTy).Contents (Elt Ideal))
    (x2 : (⟨S2048x16, .f32⟩ : BufTy).Contents (Elt Ideal)) (x3 : (⟨S16x8192, .f32⟩ : BufTy).Contents (Elt Ideal))
    (x4 x5 : (⟨S8192x2048, .f32⟩ : BufTy).Contents (Elt Ideal)) (x6 : (⟨S2048x8192, .f32⟩ : BufTy).Contents (Elt Ideal))
    (x7 : (⟨S2048, .f32⟩ : BufTy).Contents (Elt Ideal))

/-! ### The reference's index functions at an index given by its coordinates -/

theorem idx5_ix (b : Fin 2) (s k : Fin 2048) : idx_main_v5 (ix2 b s) k = ix3 b s k :=
  funext fun a => Fin.ext (by match a with | ⟨0, _⟩ => rfl | ⟨1, _⟩ => rfl | ⟨2, _⟩ => rfl)

theorem idx6_ix (b : Fin 2) (s : Fin 2048) (z : Fin 1) : idx_main_v6 (ix3 b s z) = ix2 b s :=
  funext fun a => Fin.ext (by match a with | ⟨0, _⟩ => rfl | ⟨1, _⟩ => rfl)

theorem idx12_ix (b : Fin 2) (s d : Fin 2048) : idx_main_v12 (ix3 b s d) = ix3 b s (0 : Fin 1) :=
  funext fun a => Fin.ext (by match a with | ⟨0, _⟩ => rfl | ⟨1, _⟩ => rfl | ⟨2, _⟩ => rfl)

theorem idx14_15_ix (b : Fin 2) (s d : Fin 2048) : idx_main_v14 (idx_main_v15 (ix3 b s d)) = ix1 d :=
  funext fun a => Fin.ext (by match a with | ⟨0, _⟩ => rfl)

/-! ### The normalised row -/

/-- The sum of squares of the token's row. -/
theorem sumsq_stage (b : Fin 2) (s : Fin 2048) :
    val_main_v5 (F := Ideal) x0 (ix2 b s) = ∑ d : Fin 2048, x0 (ix3 b s d) * x0 (ix3 b s d) := by
  rw [val_main_v5_apply, val_main_cst_0_apply, Ideal.ofBits_def, Ideal.ofBits_zero_f32, zero_add]
  refine Finset.sum_congr rfl fun k _ => ?_
  rw [val_main_v4_apply, idx5_ix]
  rfl

/-- The reciprocal root mean square of the token's row. -/
theorem invRms_stage (b : Fin 2) (s : Fin 2048) :
    val_main_v11 (F := Ideal) x0 (ix3 b s (0 : Fin 1)) = invRms (fun d' => x0 (ix3 b s d')) := by
  rw [val_main_v11_apply, val_main_v10_apply, val_main_v8_apply, val_main_v6_apply, val_main_v7_apply,
    val_main_cst_1_apply, val_main_v9_apply, val_main_cst_2_apply, idx6_ix, sumsq_stage]
  rfl

/-- The normalised, scaled row. -/
theorem normed_stage (b : Fin 2) (s d : Fin 2048) :
    val_main_v16 (F := Ideal) x0 x7 (ix3 b s d)
      = normed (fun d' => x0 (ix3 b s d')) (fun d' => x7 (ix1 d')) d := by
  rw [val_main_v16_apply, val_main_v13_apply, val_main_v12_apply, val_main_v15_apply, val_main_v14_apply,
    idx12_ix, idx14_15_ix, invRms_stage]
  rfl

end stages

section stages2

variable (x0 x1 : (⟨S2x2048x2048, .f32⟩ : BufTy).Contents (Elt Ideal))
    (x2 : (⟨S2048x16, .f32⟩ : BufTy).Contents (Elt Ideal)) (x3 : (⟨S16x8192, .f32⟩ : BufTy).Contents (Elt Ideal))
    (x4 x5 : (⟨S8192x2048, .f32⟩ : BufTy).Contents (Elt Ideal)) (x6 : (⟨S2048x8192, .f32⟩ : BufTy).Contents (Elt Ideal))
    (x7 : (⟨S2048, .f32⟩ : BufTy).Contents (Elt Ideal))

/-! ### The low-rank path -/

theorem lidx0_ix (b : Fin 2) (s : Fin 2048) (r : Fin 16) (k : Fin 2048) : lidx_main_v0 (ix3 b s r) k = ix3 b s k :=
  funext fun a => Fin.ext (by match a with | ⟨0, _⟩ => rfl | ⟨1, _⟩ => rfl | ⟨2, _⟩ => rfl)

theorem ridx0_ix (b : Fin 2) (s : Fin 2048) (r : Fin 16) (k : Fin 2048) : ridx_main_v0 (ix3 b s r) k = ix2 k r :=
  funext fun a => Fin.ext (by match a with | ⟨0, _⟩ => rfl | ⟨1, _⟩ => rfl)

theorem lidx17_ix (b : Fin 2) (s : Fin 2048) (r : Fin 16) (k : Fin 2048) : lidx_main_v17 (ix3 b s r) k = ix3 b s k :=
  funext fun a => Fin.ext (by match a with | ⟨0, _⟩ => rfl | ⟨1, _⟩ => rfl | ⟨2, _⟩ => rfl)

theorem ridx17_ix (b : Fin 2) (s : Fin 2048) (r : Fin 16) (k : Fin 2048) : ridx_main_v17 (ix3 b s r) k = ix2 k r :=
  funext fun a => Fin.ext (by match a with | ⟨0, _⟩ => rfl | ⟨1, _⟩ => rfl)

/-- The attention row against the low-rank factor. -/
theorem attnProj_stage (b : Fin 2) (s : Fin 2048) (r : Fin 16) :
    val_main_v0 (F := Ideal) x1 x2 (ix3 b s r) = proj (fun d' => x1 (ix3 b s d')) (matFn x2) r := by
  rw [val_main_v0_apply]
  refine Finset.sum_congr rfl fun k _ => ?_
  rw [lidx0_ix, ridx0_ix]

/-- The scaled hyperbolic tangent of it. -/
theorem modFactor_stage (b : Fin 2) (s : Fin 2048) (r : Fin 16) :
    val_main_v3 (F := Ideal) x1 x2 (ix3 b s r)
      = modScale * Ideal.tanh (proj (fun d' => x1 (ix3 b s d')) (matFn x2) r) := by
  rw [val_main_v3_apply, val_main_v2_apply, val_main_cst_apply, val_main_v1_apply, attnProj_stage]
  rfl

/-- The normalised row against the low-rank factor. -/
theorem normProj_stage (b : Fin 2) (s : Fin 2048) (r : Fin 16) :
    val_main_v17 (F := Ideal) x0 x2 x7 (ix3 b s r)
      = proj (normed (fun d' => x0 (ix3 b s d')) (fun d' => x7 (ix1 d'))) (matFn x2) r := by
  rw [val_main_v17_apply]
  refine Finset.sum_congr rfl fun k _ => ?_
  rw [lidx17_ix, ridx17_ix, normed_stage]

/-- The modulated low-rank coefficients. -/
theorem premod_stage (b : Fin 2) (s : Fin 2048) (r : Fin 16) :
    val_main_v18 (F := Ideal) x0 x1 x2 x7 (ix3 b s r)
      = premod (fun d' => x0 (ix3 b s d')) (fun d' => x1 (ix3 b s d')) (fun d' => x7 (ix1 d')) (matFn x2) r := by
  rw [val_main_v18_apply, normProj_stage, modFactor_stage]
  rfl

/-! ### The gate -/

theorem lidx19_ix (b : Fin 2) (s : Fin 2048) (f : Fin 8192) (k : Fin 16) : lidx_main_v19 (ix3 b s f) k = ix3 b s k :=
  funext fun a => Fin.ext (by match a with | ⟨0, _⟩ => rfl | ⟨1, _⟩ => rfl | ⟨2, _⟩ => rfl)

theorem ridx19_ix (b : Fin 2) (s : Fin 2048) (f : Fin 8192) (k : Fin 16) : ridx_main_v19 (ix3 b s f) k = ix2 k f :=
  funext fun a => Fin.ext (by match a with | ⟨0, _⟩ => rfl | ⟨1, _⟩ => rfl)

theorem lidx20_ix (b : Fin 2) (s : Fin 2048) (f : Fin 8192) (k : Fin 2048) : lidx_main_v20 (ix3 b s f) k = ix3 b s k :=
  funext fun a => Fin.ext (by match a with | ⟨0, _⟩ => rfl | ⟨1, _⟩ => rfl | ⟨2, _⟩ => rfl)

theorem ridx20_ix (b : Fin 2) (s : Fin 2048) (f : Fin 8192) (k : Fin 2048) : ridx_main_v20 (ix3 b s f) k = ix2 f k :=
  funext fun a => Fin.ext (by match a with | ⟨0, _⟩ => rfl | ⟨1, _⟩ => rfl)

theorem lidx23_ix (b : Fin 2) (s : Fin 2048) (f : Fin 8192) (k : Fin 2048) : lidx_main_v23 (ix3 b s f) k = ix3 b s k :=
  funext fun a => Fin.ext (by match a with | ⟨0, _⟩ => rfl | ⟨1, _⟩ => rfl | ⟨2, _⟩ => rfl)

theorem ridx23_ix (b : Fin 2) (s : Fin 2048) (f : Fin 8192) (k : Fin 2048) : ridx_main_v23 (ix3 b s f) k = ix2 f k :=
  funext fun a => Fin.ext (by match a with | ⟨0, _⟩ => rfl | ⟨1, _⟩ => rfl)

/-- The gate's pre-activation at a hidden feature. -/
theorem gatePre_stage (b : Fin 2) (s : Fin 2048) (f : Fin 8192) :
    val_main_v21 (F := Ideal) x0 x1 x2 x3 x4 x7 (ix3 b s f)
      = gatePre (fun d' => x0 (ix3 b s d')) (fun d' => x1 (ix3 b s d')) (fun d' => x7 (ix1 d')) (matFn x2)
          (fun r => matFn x3 r f) (matFn x4 f) := by
  rw [val_main_v21_apply, val_main_v20_apply, val_main_v19_apply]
  unfold gatePre
  refine congrArg₂ (· + ·) (Finset.sum_congr rfl fun k _ => ?_) (Finset.sum_congr rfl fun k _ => ?_)
  · rw [lidx20_ix, ridx20_ix, normed_stage]
  · rw [lidx19_ix, ridx19_ix, premod_stage]

/-- The gate: the pre-activation times its logistic. -/
theorem silu_stage (b : Fin 2) (s : Fin 2048) (f : Fin 8192) :
    val_main_v22 (F := Ideal) x0 x1 x2 x3 x4 x7 (ix3 b s f)
      = gatePre (fun d' => x0 (ix3 b s d')) (fun d' => x1 (ix3 b s d')) (fun d' => x7 (ix1 d')) (matFn x2)
            (fun r => matFn x3 r f) (matFn x4 f)
          * Ideal.logistic (gatePre (fun d' => x0 (ix3 b s d')) (fun d' => x1 (ix3 b s d')) (fun d' => x7 (ix1 d'))
            (matFn x2) (fun r => matFn x3 r f) (matFn x4 f)) := by
  rw [val_main_v22_apply, val_main_call0_v5_apply, val_main_call0_v4_apply, val_main_call0_cst_0_apply,
    val_main_call0_v3_apply, val_main_call0_v2_apply, val_main_call0_cst_apply, val_main_call0_v1_apply,
    val_main_call0_v0_apply, gatePre_stage, Ideal.ofBits_def, one_word]
  rfl

/-- The up projection at a hidden feature. -/
theorem up_stage (b : Fin 2) (s : Fin 2048) (f : Fin 8192) :
    val_main_v23 (F := Ideal) x0 x5 x7 (ix3 b s f)
      = ∑ d : Fin 2048, normed (fun d' => x0 (ix3 b s d')) (fun d' => x7 (ix1 d')) d * matFn x5 f d := by
  rw [val_main_v23_apply]
  refine Finset.sum_congr rfl fun k _ => ?_
  rw [lidx23_ix, ridx23_ix, normed_stage]

/-- The gated hidden activation. -/
theorem gated_stage (b : Fin 2) (s : Fin 2048) (f : Fin 8192) :
    val_main_v24 (F := Ideal) x0 x1 x2 x3 x4 x5 x7 (ix3 b s f)
      = gated (fun d' => x0 (ix3 b s d')) (fun d' => x1 (ix3 b s d')) (fun d' => x7 (ix1 d')) (matFn x2)
          (fun r => matFn x3 r f) (matFn x4 f) (matFn x5 f) := by
  rw [val_main_v24_apply, silu_stage, up_stage]
  rfl

/-! ### The result -/

theorem lidx25_ix (b : Fin 2) (s d : Fin 2048) (k : Fin 8192) : lidx_main_v25 (ix3 b s d) k = ix3 b s k :=
  funext fun a => Fin.ext (by match a with | ⟨0, _⟩ => rfl | ⟨1, _⟩ => rfl | ⟨2, _⟩ => rfl)

theorem ridx25_ix (b : Fin 2) (s d : Fin 2048) (k : Fin 8192) : ridx_main_v25 (ix3 b s d) k = ix2 d k :=
  funext fun a => Fin.ext (by match a with | ⟨0, _⟩ => rfl | ⟨1, _⟩ => rfl)

/-- The reference's last stage at (batch, position, feature) is the result row of that token. -/
theorem out_stage (b : Fin 2) (s d : Fin 2048) :
    val_main_v26 (F := Ideal) x0 x1 x2 x3 x4 x5 x6 x7 (ix3 b s d)
      = rowOut (fun d' => x0 (ix3 b s d')) (fun d' => x1 (ix3 b s d')) (fun d' => x7 (ix1 d'))
          (matFn x2) (matFn x3) (matFn x4) (matFn x5) (matFn x6) d := by
  rw [val_main_v26_apply, val_main_v25_apply]
  unfold rowOut
  refine congrArg (x0 (ix3 b s d) + ·) (Finset.sum_congr rfl fun k _ => ?_)
  rw [lidx25_ix, ridx25_ix, gated_stage]

end stages2

/-- The reference's last stage, as a function of the eight argument arrays, is `result` of them. -/
theorem reference_eq_result (x0 x1 : (⟨S2x2048x2048, .f32⟩ : BufTy).Contents (Elt Ideal))
    (x2 : (⟨S2048x16, .f32⟩ : BufTy).Contents (Elt Ideal)) (x3 : (⟨S16x8192, .f32⟩ : BufTy).Contents (Elt Ideal))
    (x4 x5 : (⟨S8192x2048, .f32⟩ : BufTy).Contents (Elt Ideal)) (x6 : (⟨S2048x8192, .f32⟩ : BufTy).Contents (Elt Ideal))
    (x7 : (⟨S2048, .f32⟩ : BufTy).Contents (Elt Ideal)) :
    val_main_v26 (F := Ideal) x0 x1 x2 x3 x4 x5 x6 x7 = result x0 x1 x2 x3 x4 x5 x6 x7 := by
  funext i
  obtain ⟨b, s, d, rfl⟩ : ∃ (b : Fin 2) (s d : Fin 2048), i = ix3 b s d := ⟨_, _, _, eq_ix3 i⟩
  rw [out_stage, result_ix3]

end Cert.GatedMlp

end
-- ==== Proof.CasePieces.lean ====
/-
  What each control case of the body leaves behind, as the body's own arithmetic. At the first feature tile of a
  token block the scratch is reset and then takes the tile's addend over the zero block; at every later tile it takes
  the addend over what the tile before left; at the last tile the output block is, besides, the token block plus
  the scratch just written.
-/
import proofs.«126605_j3994319585427_1_alg».proof.Proof.Gen.KernelIdeal.Frame
import Idealize.ShloMosaic.Lib.Pipeline.Value

set_option maxRecDepth 16384

noncomputable section

namespace Cert.GatedMlp

open Idealize.ShloMosaic Idealize.ShloMosaic.TcCoe Idealize.ShloMosaic.Tactic
open Idealize.SL Idealize.SL.Sem
open Cert.KernelIdeal Cert.KernelIdeal.Gen

variable {F : FTy → Type} [FloatOps F]

/-- The zero offsets of a whole-block access, however spelt. -/
theorem CasePieces.hz : (![0, 0] : Fin 2 → ℕ) = fun _ => 0 := funext fun a => by fin_cases a <;> rfl

/-- First tile: the scratch ends at the tile's addend over the reset block. -/
theorem scratch_first (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S2048x16 .bf16) (harg5 : arg5.IsWhole) (arg6 : Memref sig .tc .vmem S16x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S256x2048 .f32) (harg10 : arg10.IsWhole) (arg11 : Memref sig .tc .vmem S256x2048 .f32) (harg11 : arg11.IsWhole) (hc0 : cond0_0 i) (hc1 : ¬cond0_1 i)
    (x0 : Vec F S256x2048 .f32) (x1 : Vec F S256x2048 .f32) (x2 : Vec F S1x2048 .f32) (x3 : Vec F S2048x16 .bf16) (x4 : Vec F S16x512 .bf16) (x5 : Vec F S512x2048 .bf16) (x6 : Vec F S512x2048 .bf16) (x7 : Vec F S2048x512 .bf16) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = k0_pay1 (k0_pay5 x0 x2) (k0_pay6 x0 x1 x2 x3 x4) x5 x6 x7 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S256x2048) CasePieces.hz, View.readCov_unit_zero (S := S256x2048) _ CasePieces.hz]
  simp only [View.readAt_eq_ld, harg2.read_unread, harg3.read_unread, harg4.read_unread, harg5.read_unread, harg6.read_unread, harg7.read_unread, harg8.read_unread, harg9.read_unread, harg11.read_unread,
    View.ld_unit_zero (S := S256x2048) CasePieces.hz, View.ld_unit_zero (S := S1x2048) CasePieces.hz, View.ld_unit_zero (S := S2048x16) CasePieces.hz, View.ld_unit_zero (S := S16x512) CasePieces.hz, View.ld_unit_zero (S := S512x2048) CasePieces.hz, View.ld_unit_zero (S := S2048x512) CasePieces.hz]

/-- A middle tile: the scratch ends at the tile's addend over what the tile before left. -/
theorem scratch_middle (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S2048x16 .bf16) (harg5 : arg5.IsWhole) (arg6 : Memref sig .tc .vmem S16x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S256x2048 .f32) (harg10 : arg10.IsWhole) (arg11 : Memref sig .tc .vmem S256x2048 .f32) (harg11 : arg11.IsWhole) (hc0 : ¬cond0_0 i) (hc1 : ¬cond0_1 i)
    (x0 : Vec F S256x2048 .f32) (x1 : Vec F S256x2048 .f32) (x2 : Vec F S1x2048 .f32) (x3 : Vec F S2048x16 .bf16) (x4 : Vec F S16x512 .bf16) (x5 : Vec F S512x2048 .bf16) (x6 : Vec F S512x2048 .bf16) (x7 : Vec F S2048x512 .bf16) (xs0 : Vec F S256x2048 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay5 x0 x2) (k0_pay6 x0 x1 x2 x3 x4) x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero CasePieces.hz]
  simp only [View.readAt_eq_ld, harg2.read_unread, harg3.read_unread, harg4.read_unread, harg5.read_unread, harg6.read_unread, harg7.read_unread, harg8.read_unread, harg9.read_unread, harg11.read_unread,
    View.ld_unit_zero (S := S256x2048) CasePieces.hz, View.ld_unit_zero (S := S1x2048) CasePieces.hz, View.ld_unit_zero (S := S2048x16) CasePieces.hz, View.ld_unit_zero (S := S16x512) CasePieces.hz, View.ld_unit_zero (S := S512x2048) CasePieces.hz, View.ld_unit_zero (S := S2048x512) CasePieces.hz]

/-- The last tile: the scratch likewise, -/
theorem scratch_last (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S2048x16 .bf16) (harg5 : arg5.IsWhole) (arg6 : Memref sig .tc .vmem S16x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S256x2048 .f32) (harg10 : arg10.IsWhole) (arg11 : Memref sig .tc .vmem S256x2048 .f32) (harg11 : arg11.IsWhole) (hc0 : ¬cond0_0 i) (hc1 : cond0_1 i)
    (x0 : Vec F S256x2048 .f32) (x1 : Vec F S256x2048 .f32) (x2 : Vec F S1x2048 .f32) (x3 : Vec F S2048x16 .bf16) (x4 : Vec F S16x512 .bf16) (x5 : Vec F S512x2048 .bf16) (x6 : Vec F S512x2048 .bf16) (x7 : Vec F S2048x512 .bf16) (xs0 : Vec F S256x2048 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay1 (k0_pay5 x0 x2) (k0_pay6 x0 x1 x2 x3 x4) x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero CasePieces.hz]
  simp only [View.readAt_eq_ld, harg2.read_unread, harg3.read_unread, harg4.read_unread, harg5.read_unread, harg6.read_unread, harg7.read_unread, harg8.read_unread, harg9.read_unread, harg11.read_unread,
    View.ld_unit_zero (S := S256x2048) CasePieces.hz, View.ld_unit_zero (S := S1x2048) CasePieces.hz, View.ld_unit_zero (S := S2048x16) CasePieces.hz, View.ld_unit_zero (S := S16x512) CasePieces.hz, View.ld_unit_zero (S := S512x2048) CasePieces.hz, View.ld_unit_zero (S := S2048x512) CasePieces.hz]

/-- and the output block is the token block plus that scratch. -/
theorem out_last (c : Dev nD) (i : grid0.Coords) (arg2 : Memref sig .tc .vmem S256x2048 .f32) (harg2 : arg2.IsWhole) (arg3 : Memref sig .tc .vmem S256x2048 .f32) (harg3 : arg3.IsWhole) (arg4 : Memref sig .tc .vmem S1x2048 .f32) (harg4 : arg4.IsWhole) (arg5 : Memref sig .tc .vmem S2048x16 .bf16) (harg5 : arg5.IsWhole) (arg6 : Memref sig .tc .vmem S16x512 .bf16) (harg6 : arg6.IsWhole) (arg7 : Memref sig .tc .vmem S512x2048 .bf16) (harg7 : arg7.IsWhole) (arg8 : Memref sig .tc .vmem S512x2048 .bf16) (harg8 : arg8.IsWhole) (arg9 : Memref sig .tc .vmem S2048x512 .bf16) (harg9 : arg9.IsWhole) (arg10 : Memref sig .tc .vmem S256x2048 .f32) (harg10 : arg10.IsWhole) (arg11 : Memref sig .tc .vmem S256x2048 .f32) (harg11 : arg11.IsWhole) (hc0 : ¬cond0_0 i) (hc1 : cond0_1 i)
    (x0 : Vec F S256x2048 .f32) (x1 : Vec F S256x2048 .f32) (x2 : Vec F S1x2048 .f32) (x3 : Vec F S2048x16 .bf16) (x4 : Vec F S16x512 .bf16) (x5 : Vec F S512x2048 .bf16) (x6 : Vec F S512x2048 .bf16) (x7 : Vec F S2048x512 .bf16) (xs0 : Vec F S256x2048 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = k0_pay2 (k0_pay4 x0) (k0_pay1 (k0_pay5 x0 x2) (k0_pay6 x0 x1 x2 x3 x4) x5 x6 x7 xs0) := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero CasePieces.hz]
  simp only [View.readAt_eq_ld, View.readCov_unit_zero (S := S256x2048) _ CasePieces.hz, harg2.read_unread, harg3.read_unread, harg4.read_unread, harg5.read_unread, harg6.read_unread, harg7.read_unread, harg8.read_unread, harg9.read_unread, harg11.read_unread,
    View.ld_unit_zero (S := S256x2048) CasePieces.hz, View.ld_unit_zero (S := S1x2048) CasePieces.hz, View.ld_unit_zero (S := S2048x16) CasePieces.hz, View.ld_unit_zero (S := S16x512) CasePieces.hz, View.ld_unit_zero (S := S512x2048) CasePieces.hz, View.ld_unit_zero (S := S2048x512) CasePieces.hz]

end Cert.GatedMlp

end
-- ==== Proof.TilePayload.lean ====
/-
  The body's arithmetic on one (token block, feature tile) pair, read at an index over the extended reals: the
  normalised block and the low-rank correction of the tile, each in terms of the row functions of the specification.
-/
import proofs.«126605_j3994319585427_1_alg».proof.Proof.Gen.KernelIdeal.Skeleton
import proofs.«126605_j3994319585427_1_alg».proof.Proof.ResultArray
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GatedMlp

open Idealize.ShloMosaic Idealize.ShloMosaic.ValueIdx
open Cert.KernelIdeal Cert.KernelIdeal.Gen

/-- The loaded token block is itself. -/
theorem tokenBlock_apply (v3 : Vec Ideal S256x2048 .f32) (i : S256x2048.Idx) :
    k0_pay4 (F := Ideal) v3 i = v3 i := by
  unfold k0_pay4
  exact congrFun (shapeCast_self v3 shapeCasts_S256x2048_S256x2048) i

/-- The reset block is zero. -/
theorem resetBlock_apply (i : S256x2048.Idx) : k0_pay3 (F := Ideal) i = 0 := by
  unfold k0_pay3
  refine (congrFun (shapeCast_self _ shapeCasts_S256x2048_S256x2048) i).trans ?_
  exact Ideal.ofBits_zero_f32

/-- The output block is the sum of its two operands. -/
theorem outBlock_apply (v4 : FVec Ideal S256x2048 .f32) (v57 : Vec Ideal S256x2048 .f32) (i : S256x2048.Idx) :
    k0_pay2 (F := Ideal) v4 v57 i = v4 i + v57 i := rfl

/-- The loaded token block is itself, as a function. -/
theorem tokenBlock_eq (v3 : Vec Ideal S256x2048 .f32) : k0_pay4 (F := Ideal) v3 = v3 := by
  unfold k0_pay4
  exact shapeCast_self v3 shapeCasts_S256x2048_S256x2048

/-- The sum along the features of a [256, 2048] block, read at row `r`: the sum of that row. -/
theorem laneSum_apply (src : FVec Ideal S256x2048 .f32) (h : S256x2048.Reduces [1] S256) (hφ : FKind.Formats .f32)
    (hacc : (0x00000000#32 : BitVec 32) = 0x00000000#32) (r : Fin 256) :
    multiReduction (F := Ideal) .add [1] S256 src 0x00000000#32 h hφ hacc (ix1 r) = ∑ k : Fin 2048, src (ix2 r k) := by
  refine (Ideal.multiReduction_add_single src 0x00000000#32 h hφ hacc (ix1 r)).trans ?_
  refine Finset.sum_congr rfl fun k _ => congrArg src (funext fun a => ?_)
  match a with
  | ⟨0, _⟩ => rfl
  | ⟨1, _⟩ => rfl

/-- A [256] vector cast to a [256, 1] column reads, at `(r, u)`, the operand at `r`. -/
theorem column_apply {α : Type} (y : S256.Idx → α) (h : S256.ShapeCasts S256x1) (r : Fin 256) (u : Fin 1) :
    shapeCast S256x1 y h (ix2 r u) = y (ix1 r) :=
  shapeCast_apply y h _ _ (by
    have hu : u.val = 0 := by omega
    rw [Shape.rowMajor_val_two, Shape.rowMajor_val_one]
    show r.val = r.val * 1 + u.val
    rw [hu, Nat.mul_one, Nat.add_zero])

/-- A [256, 1] column broadcast to [256, 2048] reads, at `(r, d)`, the column at `r`. -/
theorem columnBroadcast_apply {α : Type} (c : S256x1.Idx → α) (h : S256x1.Broadcasts S256x2048) (r : Fin 256) (d : Fin 2048) :
    broadcastTo S256x2048 c h (ix2 r d) = c (ix2 r (0 : Fin 1)) := by
  refine broadcastTo_apply c h (ix2 r d) (ix2 r (0 : Fin 1)) fun ax => ?_
  match ax with
  | ⟨0, _⟩ =>
    show r.val = if (256 : ℕ) = 1 then 0 else r.val
    rw [if_neg (by decide)]
  | ⟨1, _⟩ =>
    show 0 = if (1 : ℕ) = 1 then 0 else d.val
    rw [if_pos rfl]

/-- The normalisation of a block by the body's operations, read at `(r, d)`. -/
theorem normedCore_apply (x : FVec Ideal S256x2048 .f32) (g : FVec Ideal S1x2048 .f32) (r : Fin 256) (d : Fin 2048) :
    truncf .bf16
      (mulf
        (mulf x
          (broadcastTo S256x2048
            (rsqrt
              (addf
                (divf
                  (shapeCast S256x1
                    (multiReduction (F := Ideal) .add [1] S256 (mulf x x) 0x00000000#32 reduces_S256x2048_S256 (.inl rfl) rfl)
                    shapeCasts_S256_S256x1)
                  (broadcast S256x1 (Scalar.ofBits (F := Ideal) .f32 0x45000000#32)))
                (broadcast S256x1 (Scalar.ofBits (F := Ideal) .f32 0x358637BD#32))))
            broadcasts_S256x1_S256x2048))
        (broadcastTo S256x2048 g broadcasts_S1x2048_S256x2048))
      bitsLt_bf16_f32 (ix2 r d)
      = normed (matRow x r) (matRow g 0) d := by
  refine (truncf_apply (ψ := .bf16) _ bitsLt_bf16_f32 (ix2 r d)).trans ?_
  refine (mulf_apply _ _ _).trans ?_
  show _ = x (ix2 r d) * invRms (matRow x r) * g (ix2 (0 : Fin 1) d)
  refine congrArg₂ (· * ·) ?_ (broadcastTo_1b_ab_apply g broadcasts_S1x2048_S256x2048 r d)
  refine (mulf_apply _ _ _).trans (congrArg (x (ix2 r d) * ·) ?_)
  refine (columnBroadcast_apply _ broadcasts_S256x1_S256x2048 r d).trans ?_
  show Ideal.rsqrt (Ideal.div (shapeCast S256x1 _ shapeCasts_S256_S256x1 (ix2 r (0 : Fin 1))) meanDen + eps) = invRms (matRow x r)
  unfold invRms
  refine congrArg (fun s => Ideal.rsqrt (Ideal.div s meanDen + eps)) ?_
  refine (column_apply _ shapeCasts_S256_S256x1 r 0).trans ?_
  exact laneSum_apply (mulf x x) reduces_S256x2048_S256 (.inl rfl) rfl r

/-- Row `r` of the normalised block is the normalised row `r` of the token block. -/
theorem normedBlock_apply (v3 : Vec Ideal S256x2048 .f32) (v7 : Vec Ideal S1x2048 .f32) (r : Fin 256) (d : Fin 2048) :
    k0_pay5 (F := Ideal) v3 v7 (ix2 r d) = normed (matRow v3 r) (matRow v7 0) d := by
  unfold k0_pay5
  refine (normedCore_apply (k0_pay4 v3) (shapeCast S1x2048 v7 shapeCasts_S1x2048_S1x2048) r d).trans ?_
  rw [tokenBlock_eq, shapeCast_self]

/-! ## The body's two products read at an index -/

theorem lhs_lowRank_0 (i : S256x16.Idx) (q : dot_S256x2048_S2048x16_S256x16_1_0_0_1_n_n.contr.Idx) :
    (dot_S256x2048_S2048x16_S256x16_1_0_0_1_n_n.lhsIdx i q 0).val = (i 0).val := by
  unfold DotDims.lhsIdx
  rw [dif_neg (show ¬(0 : Fin S256x2048.rank) ∈ dot_S256x2048_S2048x16_S256x16_1_0_0_1_n_n.lhsBatch by decide), dif_pos (show (0 : Fin S256x2048.rank) ∈ dot_S256x2048_S2048x16_S256x16_1_0_0_1_n_n.lhsNonContracting by decide)]
  rfl
theorem lhs_lowRank_1 (i : S256x16.Idx) (q : dot_S256x2048_S2048x16_S256x16_1_0_0_1_n_n.contr.Idx) :
    (dot_S256x2048_S2048x16_S256x16_1_0_0_1_n_n.lhsIdx i q 1).val = (q ⟨0, by decide⟩).val :=
  dot_S256x2048_S2048x16_S256x16_1_0_0_1_n_n.lhsIdx_val_of_single rfl i q
theorem rhs_lowRank_0 (i : S256x16.Idx) (q : dot_S256x2048_S2048x16_S256x16_1_0_0_1_n_n.contr.Idx) :
    (dot_S256x2048_S2048x16_S256x16_1_0_0_1_n_n.rhsIdx i q 0).val = (q ⟨0, by decide⟩).val :=
  dot_S256x2048_S2048x16_S256x16_1_0_0_1_n_n.rhsIdx_val_of_single rfl i q
theorem rhs_lowRank_1 (i : S256x16.Idx) (q : dot_S256x2048_S2048x16_S256x16_1_0_0_1_n_n.contr.Idx) :
    (dot_S256x2048_S2048x16_S256x16_1_0_0_1_n_n.rhsIdx i q 1).val = (i 1).val := by
  unfold DotDims.rhsIdx
  rw [dif_neg (show ¬(1 : Fin S2048x16.rank) ∈ dot_S256x2048_S2048x16_S256x16_1_0_0_1_n_n.rhsBatch by decide), dif_pos (show (1 : Fin S2048x16.rank) ∈ dot_S256x2048_S2048x16_S256x16_1_0_0_1_n_n.rhsNonContracting by decide)]
  rfl

/-- A [256, 2048] block against the [2048, 16] factor, into the zero accumulator: at `(r, c)` the sum over the 2048 features of row `r` against column `c`. -/
theorem lowRankMatmul_apply (lhs : FVec Ideal S256x2048 .bf16) (rhs : FVec Ideal S2048x16 .bf16) (r : Fin 256) (c : Fin 16) :
    matmul dot_S256x2048_S2048x16_S256x16_1_0_0_1_n_n none lhs rhs (constant (F := Ideal) S256x16 .f32 0x00000000#32) (ix2 r c)
      = ∑ k : Fin 2048, lhs (ix2 r k) * rhs (ix2 k c) := by
  refine (Ideal.matmul_constant_zero_apply dot_S256x2048_S2048x16_S256x16_1_0_0_1_n_n none lhs rhs (ix2 r c)).trans ?_
  refine (Equiv.sum_comp (contrEquiv1 dot_S256x2048_S2048x16_S256x16_1_0_0_1_n_n 2048 rfl rfl).symm _).symm.trans ?_
  refine Finset.sum_congr rfl fun k _ => ?_
  have hk := contrEquiv1_symm_val dot_S256x2048_S2048x16_S256x16_1_0_0_1_n_n 2048 rfl rfl k
  have el : dot_S256x2048_S2048x16_S256x16_1_0_0_1_n_n.lhsIdx (ix2 r c) ((contrEquiv1 dot_S256x2048_S2048x16_S256x16_1_0_0_1_n_n 2048 rfl rfl).symm k) = ix2 r k := funext fun a => Fin.ext (by
    match a with
    | ⟨0, _⟩ => exact lhs_lowRank_0 _ _
    | ⟨1, _⟩ => exact (lhs_lowRank_1 _ _).trans hk)
  have er : dot_S256x2048_S2048x16_S256x16_1_0_0_1_n_n.rhsIdx (ix2 r c) ((contrEquiv1 dot_S256x2048_S2048x16_S256x16_1_0_0_1_n_n 2048 rfl rfl).symm k) = ix2 k c := funext fun a => Fin.ext (by
    match a with
    | ⟨0, _⟩ => exact (rhs_lowRank_0 _ _).trans hk
    | ⟨1, _⟩ => exact rhs_lowRank_1 _ _)
  rw [el, er]

theorem lhs_tile_0 (i : S256x512.Idx) (q : dot_S256x16_S16x512_S256x512_1_0_0_1_n_n.contr.Idx) :
    (dot_S256x16_S16x512_S256x512_1_0_0_1_n_n.lhsIdx i q 0).val = (i 0).val := by
  unfold DotDims.lhsIdx
  rw [dif_neg (show ¬(0 : Fin S256x16.rank) ∈ dot_S256x16_S16x512_S256x512_1_0_0_1_n_n.lhsBatch by decide), dif_pos (show (0 : Fin S256x16.rank) ∈ dot_S256x16_S16x512_S256x512_1_0_0_1_n_n.lhsNonContracting by decide)]
  rfl
theorem lhs_tile_1 (i : S256x512.Idx) (q : dot_S256x16_S16x512_S256x512_1_0_0_1_n_n.contr.Idx) :
    (dot_S256x16_S16x512_S256x512_1_0_0_1_n_n.lhsIdx i q 1).val = (q ⟨0, by decide⟩).val :=
  dot_S256x16_S16x512_S256x512_1_0_0_1_n_n.lhsIdx_val_of_single rfl i q
theorem rhs_tile_0 (i : S256x512.Idx) (q : dot_S256x16_S16x512_S256x512_1_0_0_1_n_n.contr.Idx) :
    (dot_S256x16_S16x512_S256x512_1_0_0_1_n_n.rhsIdx i q 0).val = (q ⟨0, by decide⟩).val :=
  dot_S256x16_S16x512_S256x512_1_0_0_1_n_n.rhsIdx_val_of_single rfl i q
theorem rhs_tile_1 (i : S256x512.Idx) (q : dot_S256x16_S16x512_S256x512_1_0_0_1_n_n.contr.Idx) :
    (dot_S256x16_S16x512_S256x512_1_0_0_1_n_n.rhsIdx i q 1).val = (i 1).val := by
  unfold DotDims.rhsIdx
  rw [dif_neg (show ¬(1 : Fin S16x512.rank) ∈ dot_S256x16_S16x512_S256x512_1_0_0_1_n_n.rhsBatch by decide), dif_pos (show (1 : Fin S16x512.rank) ∈ dot_S256x16_S16x512_S256x512_1_0_0_1_n_n.rhsNonContracting by decide)]
  rfl

/-- The [256, 16] coefficients against a [16, 512] tile, into the zero accumulator: at `(r, c)` the sum over the 16 coefficients of row `r` against column `c`. -/
theorem tileMatmul_apply (lhs : FVec Ideal S256x16 .bf16) (rhs : FVec Ideal S16x512 .bf16) (r : Fin 256) (c : Fin 512) :
    matmul dot_S256x16_S16x512_S256x512_1_0_0_1_n_n none lhs rhs (constant (F := Ideal) S256x512 .f32 0x00000000#32) (ix2 r c)
      = ∑ k : Fin 16, lhs (ix2 r k) * rhs (ix2 k c) := by
  refine (Ideal.matmul_constant_zero_apply dot_S256x16_S16x512_S256x512_1_0_0_1_n_n none lhs rhs (ix2 r c)).trans ?_
  refine (Equiv.sum_comp (contrEquiv1 dot_S256x16_S16x512_S256x512_1_0_0_1_n_n 16 rfl rfl).symm _).symm.trans ?_
  refine Finset.sum_congr rfl fun k _ => ?_
  have hk := contrEquiv1_symm_val dot_S256x16_S16x512_S256x512_1_0_0_1_n_n 16 rfl rfl k
  have el : dot_S256x16_S16x512_S256x512_1_0_0_1_n_n.lhsIdx (ix2 r c) ((contrEquiv1 dot_S256x16_S16x512_S256x512_1_0_0_1_n_n 16 rfl rfl).symm k) = ix2 r k := funext fun a => Fin.ext (by
    match a with
    | ⟨0, _⟩ => exact lhs_tile_0 _ _
    | ⟨1, _⟩ => exact (lhs_tile_1 _ _).trans hk)
  have er : dot_S256x16_S16x512_S256x512_1_0_0_1_n_n.rhsIdx (ix2 r c) ((contrEquiv1 dot_S256x16_S16x512_S256x512_1_0_0_1_n_n 16 rfl rfl).symm k) = ix2 k c := funext fun a => Fin.ext (by
    match a with
    | ⟨0, _⟩ => exact (rhs_tile_0 _ _).trans hk
    | ⟨1, _⟩ => exact rhs_tile_1 _ _)
  rw [el, er]

/-- The low-rank correction of the tile at token `r`, feature `f'`: the token's modulated coefficients against the
    feature's column of the tile of `Bmat`. -/
theorem deltaBlock_apply (v3 v5 : Vec Ideal S256x2048 .f32) (v7 : Vec Ideal S1x2048 .f32) (v23 : Vec Ideal S2048x16 .bf16)
    (v32 : Vec Ideal S16x512 .bf16) (r : Fin 256) (f' : Fin 512) :
    k0_pay6 (F := Ideal) v3 v5 v7 v23 v32 (ix2 r f')
      = ∑ k : Fin 16, premod (matRow v3 r) (matRow v5 r) (matRow v7 0) (matFn v23) k * v32 (ix2 k f') := by
  unfold k0_pay6
  refine (tileMatmul_apply _ _ r f').trans ?_
  refine Finset.sum_congr rfl fun k _ => ?_
  refine congrArg₂ (· * ·) ?_ (congrFun (shapeCast_self v32 shapeCasts_S16x512_S16x512) (ix2 k f'))
  refine (truncf_apply (ψ := .bf16) _ bitsLt_bf16_f32 (ix2 r k)).trans ?_
  refine (mulf_apply _ _ _).trans ?_
  unfold premod
  refine congrArg₂ (· * ·) ?_ ?_
  · refine (lowRankMatmul_apply _ _ r k).trans ?_
    unfold proj
    refine Finset.sum_congr rfl fun d _ => ?_
    exact congrArg₂ (· * ·) (normedBlock_apply v3 v7 r d) (congrFun (shapeCast_self v23 shapeCasts_S2048x16_S2048x16) (ix2 d k))
  · refine (mulf_apply _ _ _).trans ?_
    refine congrArg₂ (· * ·) rfl ?_
    show Ideal.tanh _ = _
    refine congrArg Ideal.tanh ?_
    refine (lowRankMatmul_apply _ _ r k).trans ?_
    unfold proj
    refine Finset.sum_congr rfl fun d _ => ?_
    refine congrArg₂ (· * ·) ?_ (congrFun (shapeCast_self v23 shapeCasts_S2048x16_S2048x16) (ix2 d k))
    exact (truncf_apply (ψ := .bf16) _ bitsLt_bf16_f32 (ix2 r d)).trans
      (congrFun (shapeCast_self v5 shapeCasts_S256x2048_S256x2048) (ix2 r d))

end Cert.GatedMlp

end
-- ==== Proof.TileAccum.lean ====
/-
  The tile's addend to the down projection, read at an index over the extended reals: the scratch after a (token
  block, feature tile) pair is what it held plus, for token r and model feature d, the sum over the tile's 512 hidden
  features of the gated activation times the down projection's entry.
-/
import proofs.«126605_j3994319585427_1_alg».proof.Proof.TilePayload

noncomputable section

open scoped BigOperators

namespace Cert.GatedMlp

open Idealize.ShloMosaic Idealize.ShloMosaic.ValueIdx
open Cert.KernelIdeal Cert.KernelIdeal.Gen

/-- The operand indices of the product contracting both operands' last axes, one coordinate at a time: the left
    operand is read at (row of the result, contraction position), the right at (column of the result, contraction
    position). -/
theorem lhs_proj_0 (i : S256x512.Idx) (q : dot_S256x2048_S512x2048_S256x512_1_1_0_0_n_n.contr.Idx) :
    (dot_S256x2048_S512x2048_S256x512_1_1_0_0_n_n.lhsIdx i q 0).val = (i 0).val := by
  unfold DotDims.lhsIdx
  rw [dif_neg (show ¬(0 : Fin S256x2048.rank) ∈ dot_S256x2048_S512x2048_S256x512_1_1_0_0_n_n.lhsBatch by decide), dif_pos (show (0 : Fin S256x2048.rank) ∈ dot_S256x2048_S512x2048_S256x512_1_1_0_0_n_n.lhsNonContracting by decide)]
  rfl
theorem lhs_proj_1 (i : S256x512.Idx) (q : dot_S256x2048_S512x2048_S256x512_1_1_0_0_n_n.contr.Idx) :
    (dot_S256x2048_S512x2048_S256x512_1_1_0_0_n_n.lhsIdx i q 1).val = (q ⟨0, by decide⟩).val :=
  dot_S256x2048_S512x2048_S256x512_1_1_0_0_n_n.lhsIdx_val_of_single rfl i q
theorem rhs_proj_0 (i : S256x512.Idx) (q : dot_S256x2048_S512x2048_S256x512_1_1_0_0_n_n.contr.Idx) :
    (dot_S256x2048_S512x2048_S256x512_1_1_0_0_n_n.rhsIdx i q 0).val = (i 1).val := by
  unfold DotDims.rhsIdx
  rw [dif_neg (show ¬(0 : Fin S512x2048.rank) ∈ dot_S256x2048_S512x2048_S256x512_1_1_0_0_n_n.rhsBatch by decide), dif_pos (show (0 : Fin S512x2048.rank) ∈ dot_S256x2048_S512x2048_S256x512_1_1_0_0_n_n.rhsNonContracting by decide)]
  rfl
theorem rhs_proj_1 (i : S256x512.Idx) (q : dot_S256x2048_S512x2048_S256x512_1_1_0_0_n_n.contr.Idx) :
    (dot_S256x2048_S512x2048_S256x512_1_1_0_0_n_n.rhsIdx i q 1).val = (q ⟨0, by decide⟩).val :=
  dot_S256x2048_S512x2048_S256x512_1_1_0_0_n_n.rhsIdx_val_of_single rfl i q

/-- A block of 256 rows of 2048 against a tile of 512 rows of 2048, both contracted along their last axis, into the zero
    accumulator: entry (r, c) is the sum over the 2048 positions of the products of row r and row c. -/
theorem projMatmul_apply (l : FVec Ideal S256x2048 .bf16) (w : FVec Ideal S512x2048 .bf16) (r : Fin 256) (c : Fin 512) :
    matmul dot_S256x2048_S512x2048_S256x512_1_1_0_0_n_n none l w (constant (F := Ideal) S256x512 .f32 0x00000000#32) (ix2 r c)
      = ∑ k : Fin 2048, l (ix2 r k) * w (ix2 c k) := by
  refine (Ideal.matmul_constant_zero_apply dot_S256x2048_S512x2048_S256x512_1_1_0_0_n_n none l w (ix2 r c)).trans ?_
  rw [← Equiv.sum_comp (contrEquiv1 dot_S256x2048_S512x2048_S256x512_1_1_0_0_n_n 2048 rfl rfl).symm]
  refine Finset.sum_congr rfl fun k _ => ?_
  have hk := contrEquiv1_symm_val dot_S256x2048_S512x2048_S256x512_1_1_0_0_n_n 2048 rfl rfl k
  have el : dot_S256x2048_S512x2048_S256x512_1_1_0_0_n_n.lhsIdx (ix2 r c) ((contrEquiv1 dot_S256x2048_S512x2048_S256x512_1_1_0_0_n_n 2048 rfl rfl).symm k) = ix2 r k := funext fun a => Fin.ext (by
    match a with
    | ⟨0, _⟩ => exact lhs_proj_0 _ _
    | ⟨1, _⟩ => exact (lhs_proj_1 _ _).trans hk)
  have er : dot_S256x2048_S512x2048_S256x512_1_1_0_0_n_n.rhsIdx (ix2 r c) ((contrEquiv1 dot_S256x2048_S512x2048_S256x512_1_1_0_0_n_n 2048 rfl rfl).symm k) = ix2 c k := funext fun a => Fin.ext (by
    match a with
    | ⟨0, _⟩ => exact rhs_proj_0 _ _
    | ⟨1, _⟩ => exact (rhs_proj_1 _ _).trans hk)
  rw [el, er]

/-- The operand indices of the product contracting both operands' last axes, one coordinate at a time: the left
    operand is read at (row of the result, contraction position), the right at (column of the result, contraction
    position). -/
theorem lhs_down_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_down_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_down_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_down_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- A block of 256 rows of 512 against the 2048 rows of 512 of the down projection's tile, both contracted along their
    last axis, into the zero accumulator: entry (r, c) is the sum over the 512 positions of the products. -/
theorem downMatmul_apply (l : FVec Ideal S256x512 .bf16) (w : FVec Ideal S2048x512 .bf16) (r : Fin 256) (c : Fin 2048) :
    matmul dot_S256x512_S2048x512_S256x2048_1_1_0_0_n_n none l w (constant (F := Ideal) S256x2048 .f32 0x00000000#32) (ix2 r c)
      = ∑ k : Fin 512, l (ix2 r k) * w (ix2 c k) := by
  refine (Ideal.matmul_constant_zero_apply dot_S256x512_S2048x512_S256x2048_1_1_0_0_n_n none l w (ix2 r c)).trans ?_
  rw [← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r c) ((contrEquiv1 dot_S256x512_S2048x512_S256x2048_1_1_0_0_n_n 512 rfl rfl).symm k) = ix2 r k := funext fun a => Fin.ext (by
    match a with
    | ⟨0, _⟩ => exact lhs_down_0 _ _
    | ⟨1, _⟩ => exact (lhs_down_1 _ _).trans hk)
  have er : dot_S256x512_S2048x512_S256x2048_1_1_0_0_n_n.rhsIdx (ix2 r c) ((contrEquiv1 dot_S256x512_S2048x512_S256x2048_1_1_0_0_n_n 512 rfl rfl).symm k) = ix2 c k := funext fun a => Fin.ext (by
    match a with
    | ⟨0, _⟩ => exact rhs_down_0 _ _
    | ⟨1, _⟩ => exact (rhs_down_1 _ _).trans hk)
  rw [el, er]

/-- The body's arithmetic on any normalised block `v21` and correction `v34`: the scratch plus, over the tile's features,
    (gate product + correction) times its logistic times the up product, times the down projection's entry. -/
theorem tileBody_apply (v21 : FVec Ideal S256x2048 .bf16) (v34 : FVec Ideal S256x512 .f32) (v35 v37 : Vec Ideal S512x2048 .bf16)
    (v46 : Vec Ideal S2048x512 .bf16) (v49 : Vec Ideal S256x2048 .f32) (r : Fin 256) (d : Fin 2048) :
    k0_pay1 (F := Ideal) v21 v34 v35 v37 v46 v49 (ix2 r d)
      = v49 (ix2 r d) + ∑ f' : Fin 512,
          (((∑ k : Fin 2048, v21 (ix2 r k) * v35 (ix2 f' k)) + v34 (ix2 r f'))
            * Ideal.logistic ((∑ k : Fin 2048, v21 (ix2 r k) * v35 (ix2 f' k)) + v34 (ix2 r f'))
            * ∑ k : Fin 2048, v21 (ix2 r k) * v37 (ix2 f' k)) * v46 (ix2 d f') := by
  unfold k0_pay1
  have e35 : shapeCast S512x2048 v35 shapeCasts_S512x2048_S512x2048 = v35 := shapeCast_self v35 _
  have e37 : shapeCast S512x2048 v37 shapeCasts_S512x2048_S512x2048 = v37 := shapeCast_self v37 _
  have e46 : shapeCast S2048x512 v46 shapeCasts_S2048x512_S2048x512 = v46 := shapeCast_self v46 _
  rw [e35, e37, e46]
  refine (congrFun (shapeCast_self _ shapeCasts_S256x2048_S256x2048) (ix2 r d)).trans ?_
  refine congrArg (fun t => v49 (ix2 r d) + t) ?_
  refine (downMatmul_apply _ v46 r d).trans ?_
  refine Finset.sum_congr rfl fun f' _ => ?_
  refine congrArg (fun t => t * v46 (ix2 d f')) ?_
  have hA := projMatmul_apply v21 v35 r f'
  have hB := projMatmul_apply v21 v37 r f'
  generalize matmul dot_S256x2048_S512x2048_S256x512_1_1_0_0_n_n none v21 v35 (constant (F := Ideal) S256x512 .f32 0x00000000#32) = A at hA ⊢
  generalize matmul dot_S256x2048_S512x2048_S256x512_1_1_0_0_n_n none v21 v37 (constant (F := Ideal) S256x512 .f32 0x00000000#32) = B at hB ⊢
  show (A (ix2 r f') + v34 (ix2 r f')) * Ideal.logistic (A (ix2 r f') + v34 (ix2 r f')) * B (ix2 r f') = _
  rw [hA, hB]

/-- The scratch after the tile: what it held, plus the sum over the tile's 512 features of the gated activation
    times the down projection's entry. -/
theorem accumBlock_apply (v3 v5 : Vec Ideal S256x2048 .f32) (v7 : Vec Ideal S1x2048 .f32) (v23 : Vec Ideal S2048x16 .bf16)
    (v32 : Vec Ideal S16x512 .bf16) (v35 v37 : Vec Ideal S512x2048 .bf16) (v46 : Vec Ideal S2048x512 .bf16)
    (v49 : Vec Ideal S256x2048 .f32) (r : Fin 256) (d : Fin 2048) :
    k0_pay1 (F := Ideal) (k0_pay5 v3 v7) (k0_pay6 v3 v5 v7 v23 v32) v35 v37 v46 v49 (ix2 r d)
      = v49 (ix2 r d) + ∑ f' : Fin 512,
          gated (matRow v3 r) (matRow v5 r) (matRow v7 0) (matFn v23) (matCol v32 f') (matRow v35 f') (matRow v37 f')
            * v46 (ix2 d f') := by
  refine (tileBody_apply (k0_pay5 v3 v7) (k0_pay6 v3 v5 v7 v23 v32) v35 v37 v46 v49 r d).trans ?_
  refine congrArg (fun t => v49 (ix2 r d) + t) ?_
  refine Finset.sum_congr rfl fun f' _ => ?_
  refine congrArg (fun t => t * v46 (ix2 d f')) ?_
  have hg : (∑ k : Fin 2048, k0_pay5 (F := Ideal) v3 v7 (ix2 r k) * v35 (ix2 f' k))
      = ∑ k : Fin 2048, normed (matRow v3 r) (matRow v7 0) k * matRow v35 f' k :=
    Finset.sum_congr rfl fun k _ => congrArg (fun t => t * v35 (ix2 f' k)) (normedBlock_apply v3 v7 r k)
  have hu : (∑ k : Fin 2048, k0_pay5 (F := Ideal) v3 v7 (ix2 r k) * v37 (ix2 f' k))
      = ∑ k : Fin 2048, normed (matRow v3 r) (matRow v7 0) k * matRow v37 f' k :=
    Finset.sum_congr rfl fun k _ => congrArg (fun t => t * v37 (ix2 f' k)) (normedBlock_apply v3 v7 r k)
  have hc := deltaBlock_apply v3 v5 v7 v23 v32 r f'
  rw [hg, hu, hc]
  rfl

end Cert.GatedMlp

end
-- ==== Proof.BlockReads.lean ====
/-
  Where the kernel's blocks sit in its arrays, and what those arrays are. At grid point t the token and attention
  blocks are rows 256 * (t / 16) .. of their token-major arrays; the tiles of Bmat, W_in, W_up, W_down are features
  512 * (t % 16) .. of theirs; the norm weight and the factor A are whole. The token-major arrays are the argument
  arrays re-laid (token = 2048 * batch + position); the weights the call reads are the arguments' values.
-/
import proofs.«126605_j3994319585427_1_alg».proof.Proof.Gen.KernelIdeal.Frame
import proofs.«126605_j3994319585427_1_alg».proof.Proof.ResultArray
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.GatedMlp

open Idealize.ShloMosaic Idealize.ShloMosaic.TcCoe Idealize.ShloMosaic.ValueIdx
open Idealize.SL Idealize.SL.Sem
open Cert.KernelIdeal Cert.KernelIdeal.Gen

section AnyF
variable {F : FTy → Type} [FloatOps F]
variable (m : (ℓ : Loc nD τ sig) → Buf (Elt F) ℓ)

/-- The eight input blocks at a grid point, each at its literal type. -/
abbrev tokBlk (c : Dev nD) (t : Fin cfg0.N) : Vec F S256x2048 .f32 := iblk m c 0 t
abbrev attBlk (c : Dev nD) (t : Fin cfg0.N) : Vec F S256x2048 .f32 := iblk m c 1 t
abbrev gamBlk (c : Dev nD) (t : Fin cfg0.N) : Vec F S1x2048 .f32 := iblk m c 2 t
abbrev facBlk (c : Dev nD) (t : Fin cfg0.N) : Vec F S2048x16 .bf16 := iblk m c 3 t
abbrev corBlk (c : Dev nD) (t : Fin cfg0.N) : Vec F S16x512 .bf16 := iblk m c 4 t
abbrev gateBlk (c : Dev nD) (t : Fin cfg0.N) : Vec F S512x2048 .bf16 := iblk m c 5 t
abbrev upBlk (c : Dev nD) (t : Fin cfg0.N) : Vec F S512x2048 .bf16 := iblk m c 6 t
abbrev downBlk (c : Dev nD) (t : Fin cfg0.N) : Vec F S2048x512 .bf16 := iblk m c 7 t

/-- The eight arrays the call reads, as it finds them, each at its literal type. -/
abbrev tokArr (c : Dev nD) : Vec F S4096x2048 .f32 := V m c main_v0
abbrev attArr (c : Dev nD) : Vec F S4096x2048 .f32 := V m c main_v1
abbrev gamArr (c : Dev nD) : Vec F S1x2048 .f32 := V m c main_v2
abbrev facArr (c : Dev nD) : Vec F S2048x16 .bf16 := V m c main_v3
abbrev corArr (c : Dev nD) : Vec F S16x8192 .bf16 := V m c main_v4
abbrev gateArr (c : Dev nD) : Vec F S8192x2048 .bf16 := V m c main_v5
abbrev upArr (c : Dev nD) : Vec F S8192x2048 .bf16 := V m c main_v6
abbrev downArr (c : Dev nD) : Vec F S2048x8192 .bf16 := V m c main_v7

/-! ## Blocks in their arrays -/

/-- The index maps over the grid: the token and attention blocks move with the first grid coordinate, the four weight
    tiles with the second, the norm weight and the low-rank factor stay. -/
theorem blockIdx : ∀ t : Fin cfg0.N,
    (win0_0.index t (0 : Fin 2) = t.val / 16 ∧ win0_0.index t (1 : Fin 2) = 0)
    ∧ (win0_1.index t (0 : Fin 2) = t.val / 16 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = t.val % 16)
    ∧ (win0_5.index t (0 : Fin 2) = t.val % 16 ∧ win0_5.index t (1 : Fin 2) = 0)
    ∧ (win0_6.index t (0 : Fin 2) = t.val % 16 ∧ win0_6.index t (1 : Fin 2) = 0)
    ∧ (win0_7.index t (0 : Fin 2) = 0 ∧ win0_7.index t (1 : Fin 2) = t.val % 16) :=
  (by decide +kernel : ∀ t : Fin grid0.N, _)

theorem point_lt (t : Fin cfg0.N) : t.val < 256 := lt_of_lt_of_eq t.isLt (show cfg0.N = 256 from N_0)

/-- A token block read off any [4096, 2048] array: rows 256 (t / 16) onwards. -/
theorem tokBlock_read (X : S4096x2048.Idx → Elt F .f32) (t : Fin cfg0.N) (r : Fin 256) (d : Fin 2048) :
    ((cfg0.win 0).blk t).view.read (Elt F) X (ix2 r d) = X (ix2 (rowIdx (t.val / 16) r) d) := by
  rw [View.read_apply]
  show X (((cfg0.win 0).blk t).view.emb (ix2 r d)) = X (ix2 (rowIdx (t.val / 16) r) d)
  refine congrArg X ?_
  have hN := point_lt t
  obtain ⟨⟨e0, e1⟩, -⟩ := blockIdx t
  funext a
  apply Fin.ext
  match a with
  | ⟨0, _⟩ =>
    show win0_0.index t (0 : Fin 2) * 256 + 1 * r.val = (rowIdx (t.val / 16) r).val
    rw [rowIdx_val (by omega), e0]; omega
  | ⟨1, _⟩ =>
    show win0_0.index t (1 : Fin 2) * 2048 + 1 * d.val = d.val
    rw [e1]; omega

theorem tokBlk_apply (c : Dev nD) (t : Fin cfg0.N) (r : Fin 256) (d : Fin 2048) :
    tokBlk m c t (ix2 r d) = tokArr m c (ix2 (rowIdx (t.val / 16) r) d) :=
  tokBlock_read (V m c main_v0) t r d

/-- An attention block read off any [4096, 2048] array: rows 256 (t / 16) onwards. -/
theorem attBlock_read (X : S4096x2048.Idx → Elt F .f32) (t : Fin cfg0.N) (r : Fin 256) (d : Fin 2048) :
    ((cfg0.win 1).blk t).view.read (Elt F) X (ix2 r d) = X (ix2 (rowIdx (t.val / 16) r) d) := by
  rw [View.read_apply]
  show X (((cfg0.win 1).blk t).view.emb (ix2 r d)) = X (ix2 (rowIdx (t.val / 16) r) d)
  refine congrArg X ?_
  have hN := point_lt t
  obtain ⟨-, ⟨e0, e1⟩, -⟩ := blockIdx t
  funext a
  apply Fin.ext
  match a with
  | ⟨0, _⟩ =>
    show win0_1.index t (0 : Fin 2) * 256 + 1 * r.val = (rowIdx (t.val / 16) r).val
    rw [rowIdx_val (by omega), e0]; omega
  | ⟨1, _⟩ =>
    show win0_1.index t (1 : Fin 2) * 2048 + 1 * d.val = d.val
    rw [e1]; omega

theorem attBlk_apply (c : Dev nD) (t : Fin cfg0.N) (r : Fin 256) (d : Fin 2048) :
    attBlk m c t (ix2 r d) = attArr m c (ix2 (rowIdx (t.val / 16) r) d) :=
  attBlock_read (V m c main_v1) t r d

/-- The norm weight's block read off any [1, 2048] array is the array. -/
theorem gamBlock_read (X : S1x2048.Idx → Elt F .f32) (t : Fin cfg0.N) (d : Fin 2048) :
    ((cfg0.win 2).blk t).view.read (Elt F) X (ix2 (0 : Fin 1) d) = X (ix2 (0 : Fin 1) d) := by
  rw [View.read_apply]
  show X (((cfg0.win 2).blk t).view.emb (ix2 (0 : Fin 1) d)) = X (ix2 (0 : Fin 1) d)
  refine congrArg X ?_
  obtain ⟨-, -, ⟨e0, e1⟩, -⟩ := blockIdx t
  funext a
  apply Fin.ext
  match a with
  | ⟨0, _⟩ =>
    show win0_2.index t (0 : Fin 2) * 1 + 1 * (0 : Fin 1).val = (0 : Fin 1).val
    rw [e0]; rfl
  | ⟨1, _⟩ =>
    show win0_2.index t (1 : Fin 2) * 2048 + 1 * d.val = d.val
    rw [e1]; omega

theorem gamBlk_apply (c : Dev nD) (t : Fin cfg0.N) (d : Fin 2048) :
    gamBlk m c t (ix2 (0 : Fin 1) d) = gamArr m c (ix2 (0 : Fin 1) d) :=
  gamBlock_read (V m c main_v2) t d

/-- The low-rank factor's block read off any [2048, 16] array is the array. -/
theorem facBlock_read (X : S2048x16.Idx → Elt F .bf16) (t : Fin cfg0.N) (p : Fin 2048) (q : Fin 16) :
    ((cfg0.win 3).blk t).view.read (Elt F) X (ix2 p q) = X (ix2 p q) := by
  rw [View.read_apply]
  show X (((cfg0.win 3).blk t).view.emb (ix2 p q)) = X (ix2 p q)
  refine congrArg X ?_
  have hN := point_lt t
  obtain ⟨-, -, -, ⟨e0, e1⟩, -⟩ := blockIdx t
  funext a
  apply Fin.ext
  match a with
  | ⟨0, _⟩ =>
    show win0_3.index t (0 : Fin 2) * 2048 + 1 * p.val = p.val
    rw [e0]; omega
  | ⟨1, _⟩ =>
    show win0_3.index t (1 : Fin 2) * 16 + 1 * q.val = q.val
    rw [e1]; omega

theorem facBlk_apply (c : Dev nD) (t : Fin cfg0.N) (p : Fin 2048) (q : Fin 16) :
    facBlk m c t (ix2 p q) = facArr m c (ix2 p q) :=
  facBlock_read (V m c main_v3) t p q

/-- A tile of the low-rank correction read off any [16, 8192] array: columns 512 (t % 16) onwards. -/
theorem corBlock_read (X : S16x8192.Idx → Elt F .bf16) (t : Fin cfg0.N) (k : Fin 16) (f' : Fin 512) :
    ((cfg0.win 4).blk t).view.read (Elt F) X (ix2 k f') = X (ix2 k (tileIdx (t.val % 16) f')) := by
  rw [View.read_apply]
  show X (((cfg0.win 4).blk t).view.emb (ix2 k f')) = X (ix2 k (tileIdx (t.val % 16) f'))
  refine congrArg X ?_
  have hN := point_lt t
  obtain ⟨-, -, -, -, ⟨e0, e1⟩, -⟩ := blockIdx t
  funext a
  apply Fin.ext
  match a with
  | ⟨0, _⟩ =>
    show win0_4.index t (0 : Fin 2) * 16 + 1 * k.val = k.val
    rw [e0]; omega
  | ⟨1, _⟩ =>
    show win0_4.index t (1 : Fin 2) * 512 + 1 * f'.val = (tileIdx (t.val % 16) f').val
    rw [tileIdx_val (by omega), e1]; omega

theorem corBlk_apply (c : Dev nD) (t : Fin cfg0.N) (k : Fin 16) (f' : Fin 512) :
    corBlk m c t (ix2 k f') = corArr m c (ix2 k (tileIdx (t.val % 16) f')) :=
  corBlock_read (V m c main_v4) t k f'

/-- A tile of the gate projection read off any [8192, 2048] array: rows 512 (t % 16) onwards. -/
theorem gateBlock_read (X : S8192x2048.Idx → Elt F .bf16) (t : Fin cfg0.N) (f' : Fin 512) (d : Fin 2048) :
    ((cfg0.win 5).blk t).view.read (Elt F) X (ix2 f' d) = X (ix2 (tileIdx (t.val % 16) f') d) := by
  rw [View.read_apply]
  show X (((cfg0.win 5).blk t).view.emb (ix2 f' d)) = X (ix2 (tileIdx (t.val % 16) f') d)
  refine congrArg X ?_
  have hN := point_lt t
  obtain ⟨-, -, -, -, -, ⟨e0, e1⟩, -⟩ := blockIdx t
  funext a
  apply Fin.ext
  match a with
  | ⟨0, _⟩ =>
    show win0_5.index t (0 : Fin 2) * 512 + 1 * f'.val = (tileIdx (t.val % 16) f').val
    rw [tileIdx_val (by omega), e0]; omega
  | ⟨1, _⟩ =>
    show win0_5.index t (1 : Fin 2) * 2048 + 1 * d.val = d.val
    rw [e1]; omega

theorem gateBlk_apply (c : Dev nD) (t : Fin cfg0.N) (f' : Fin 512) (d : Fin 2048) :
    gateBlk m c t (ix2 f' d) = gateArr m c (ix2 (tileIdx (t.val % 16) f') d) :=
  gateBlock_read (V m c main_v5) t f' d

/-- A tile of the up projection read off any [8192, 2048] array: rows 512 (t % 16) onwards. -/
theorem upBlock_read (X : S8192x2048.Idx → Elt F .bf16) (t : Fin cfg0.N) (f' : Fin 512) (d : Fin 2048) :
    ((cfg0.win 6).blk t).view.read (Elt F) X (ix2 f' d) = X (ix2 (tileIdx (t.val % 16) f') d) := by
  rw [View.read_apply]
  show X (((cfg0.win 6).blk t).view.emb (ix2 f' d)) = X (ix2 (tileIdx (t.val % 16) f') d)
  refine congrArg X ?_
  have hN := point_lt t
  obtain ⟨-, -, -, -, -, -, ⟨e0, e1⟩, -⟩ := blockIdx t
  funext a
  apply Fin.ext
  match a with
  | ⟨0, _⟩ =>
    show win0_6.index t (0 : Fin 2) * 512 + 1 * f'.val = (tileIdx (t.val % 16) f').val
    rw [tileIdx_val (by omega), e0]; omega
  | ⟨1, _⟩ =>
    show win0_6.index t (1 : Fin 2) * 2048 + 1 * d.val = d.val
    rw [e1]; omega

theorem upBlk_apply (c : Dev nD) (t : Fin cfg0.N) (f' : Fin 512) (d : Fin 2048) :
    upBlk m c t (ix2 f' d) = upArr m c (ix2 (tileIdx (t.val % 16) f') d) :=
  upBlock_read (V m c main_v6) t f' d

/-- A tile of the down projection read off any [2048, 8192] array: columns 512 (t % 16) onwards. -/
theorem downBlock_read (X : S2048x8192.Idx → Elt F .bf16) (t : Fin cfg0.N) (d : Fin 2048) (f' : Fin 512) :
    ((cfg0.win 7).blk t).view.read (Elt F) X (ix2 d f') = X (ix2 d (tileIdx (t.val % 16) f')) := by
  rw [View.read_apply]
  show X (((cfg0.win 7).blk t).view.emb (ix2 d f')) = X (ix2 d (tileIdx (t.val % 16) f'))
  refine congrArg X ?_
  have hN := point_lt t
  obtain ⟨-, -, -, -, -, -, -, ⟨e0, e1⟩⟩ := blockIdx t
  funext a
  apply Fin.ext
  match a with
  | ⟨0, _⟩ =>
    show win0_7.index t (0 : Fin 2) * 2048 + 1 * d.val = d.val
    rw [e0]; omega
  | ⟨1, _⟩ =>
    show win0_7.index t (1 : Fin 2) * 512 + 1 * f'.val = (tileIdx (t.val % 16) f').val
    rw [tileIdx_val (by omega), e1]; omega

theorem downBlk_apply (c : Dev nD) (t : Fin cfg0.N) (d : Fin 2048) (f' : Fin 512) :
    downBlk m c t (ix2 d f') = downArr m c (ix2 d (tileIdx (t.val % 16) f')) :=
  downBlock_read (V m c main_v7) t d f'

/-! ## The re-laid arrays -/

/-- The token array the call reads is the first argument re-laid. -/
theorem tokArr_eq (c : Dev nD) :
    (tokArr m c : S4096x2048.Idx → Elt F .f32)
      = shapeCast S4096x2048 (m ((c : Thread nD τ).loc main_arg0)) shapeCasts_S2x2048x2048_S4096x2048 := by
  show StableHlo.after hostOps0 (fun b => m (c, b)) (Proc.devRef .tc main_v0) = _
  after_results
  rfl

/-- The attention array the call reads is the second argument re-laid. -/
theorem attArr_eq (c : Dev nD) :
    (attArr m c : S4096x2048.Idx → Elt F .f32)
      = shapeCast S4096x2048 (m ((c : Thread nD τ).loc main_arg1)) shapeCasts_S2x2048x2048_S4096x2048 := by
  show StableHlo.after hostOps0 (fun b => m (c, b)) (Proc.devRef .tc main_v1) = _
  after_results
  rfl

/-- The norm weight the call reads is the last argument as a one-row matrix. -/
theorem gamArr_eq (c : Dev nD) :
    (gamArr m c : S1x2048.Idx → Elt F .f32)
      = shapeCast S1x2048 (m ((c : Thread nD τ).loc main_arg7)) shapeCasts_S2048_S1x2048 := by
  show StableHlo.after hostOps0 (fun b => m (c, b)) (Proc.devRef .tc main_v2) = _
  after_results
  rfl

/-- A [2, 2048, 2048] array re-laid as [4096, 2048] reads, at (2048 b + s, d), the operand at (b, s, d). -/
theorem relaid_apply {α : Type} (x : S2x2048x2048.Idx → α) (b : Fin 2) (s d : Fin 2048) :
    shapeCast S4096x2048 x shapeCasts_S2x2048x2048_S4096x2048 (ix2 (tokenIdx b s) d) = x (ix3 b s d) :=
  shapeCast_apply x _ _ _ (by
    rw [Shape.rowMajor_val_three, Shape.rowMajor_val_two]
    show (b.val * 2048 + s.val) * 2048 + d.val = (tokenIdx b s).val * 2048 + d.val
    rw [tokenIdx_val]
    omega)

theorem tokArr_apply (c : Dev nD) (b : Fin 2) (s d : Fin 2048) :
    tokArr m c (ix2 (tokenIdx b s) d) = m ((c : Thread nD τ).loc main_arg0) (ix3 b s d) :=
  (congrFun (tokArr_eq m c) (ix2 (tokenIdx b s) d)).trans (relaid_apply _ b s d)

theorem attArr_apply (c : Dev nD) (b : Fin 2) (s d : Fin 2048) :
    attArr m c (ix2 (tokenIdx b s) d) = m ((c : Thread nD τ).loc main_arg1) (ix3 b s d) :=
  (congrFun (attArr_eq m c) (ix2 (tokenIdx b s) d)).trans (relaid_apply _ b s d)

/-- A vector of 2048 re-laid as a one-row matrix reads, at (0, d), the operand at d. -/
theorem oneRow_apply {α : Type} (x : S2048.Idx → α) (d : Fin 2048) :
    shapeCast S1x2048 x shapeCasts_S2048_S1x2048 (ix2 (0 : Fin 1) d) = x (ix1 d) :=
  shapeCast_apply x _ _ _ (by
    rw [Shape.rowMajor_val_one, Shape.rowMajor_val_two]
    show d.val = 0 * 2048 + d.val
    omega)

theorem gamArr_apply (c : Dev nD) (d : Fin 2048) :
    gamArr m c (ix2 (0 : Fin 1) d) = m ((c : Thread nD τ).loc main_arg7) (ix1 d) :=
  (congrFun (gamArr_eq m c) (ix2 (0 : Fin 1) d)).trans (oneRow_apply _ d)

/-- Each weight the call reads is its argument with the float format changed. -/
theorem facArr_eq (c : Dev nD) :
    (facArr m c : S2048x16.Idx → Elt F .bf16) = truncf .bf16 (m ((c : Thread nD τ).loc main_arg2)) bitsLt_bf16_f32 := by
  show StableHlo.after hostOps0 (fun b => m (c, b)) (Proc.devRef .tc main_v3) = _
  after_results

theorem corArr_eq (c : Dev nD) :
    (corArr m c : S16x8192.Idx → Elt F .bf16) = truncf .bf16 (m ((c : Thread nD τ).loc main_arg3)) bitsLt_bf16_f32 := by
  show StableHlo.after hostOps0 (fun b => m (c, b)) (Proc.devRef .tc main_v4) = _
  after_results

theorem gateArr_eq (c : Dev nD) :
    (gateArr m c : S8192x2048.Idx → Elt F .bf16) = truncf .bf16 (m ((c : Thread nD τ).loc main_arg4)) bitsLt_bf16_f32 := by
  show StableHlo.after hostOps0 (fun b => m (c, b)) (Proc.devRef .tc main_v5) = _
  after_results

theorem upArr_eq (c : Dev nD) :
    (upArr m c : S8192x2048.Idx → Elt F .bf16) = truncf .bf16 (m ((c : Thread nD τ).loc main_arg5)) bitsLt_bf16_f32 := by
  show StableHlo.after hostOps0 (fun b => m (c, b)) (Proc.devRef .tc main_v6) = _
  after_results

theorem downArr_eq (c : Dev nD) :
    (downArr m c : S2048x8192.Idx → Elt F .bf16) = truncf .bf16 (m ((c : Thread nD τ).loc main_arg6)) bitsLt_bf16_f32 := by
  show StableHlo.after hostOps0 (fun b => m (c, b)) (Proc.devRef .tc main_v7) = _
  after_results

end AnyF

/-! ## The weights the call reads are the arguments' values (a change of float format is the identity) -/

section AtIdeal
variable (m : (ℓ : Loc nD τ sig) → Buf (Elt Ideal) ℓ)

theorem facArr_apply (c : Dev nD) (p : Fin 2048) (q : Fin 16) :
    (facArr m c (ix2 p q) : EReal) = m ((c : Thread nD τ).loc main_arg2) (ix2 p q) :=
  (congrFun (facArr_eq m c) (ix2 p q)).trans (truncf_apply _ _ _)

theorem corArr_apply (c : Dev nD) (k : Fin 16) (f : Fin 8192) :
    (corArr m c (ix2 k f) : EReal) = m ((c : Thread nD τ).loc main_arg3) (ix2 k f) :=
  (congrFun (corArr_eq m c) (ix2 k f)).trans (truncf_apply _ _ _)

theorem gateArr_apply (c : Dev nD) (f : Fin 8192) (d : Fin 2048) :
    (gateArr m c (ix2 f d) : EReal) = m ((c : Thread nD τ).loc main_arg4) (ix2 f d) :=
  (congrFun (gateArr_eq m c) (ix2 f d)).trans (truncf_apply _ _ _)

theorem upArr_apply (c : Dev nD) (f : Fin 8192) (d : Fin 2048) :
    (upArr m c (ix2 f d) : EReal) = m ((c : Thread nD τ).loc main_arg5) (ix2 f d) :=
  (congrFun (upArr_eq m c) (ix2 f d)).trans (truncf_apply _ _ _)

theorem downArr_apply (c : Dev nD) (d : Fin 2048) (f : Fin 8192) :
    (downArr m c (ix2 d f) : EReal) = m ((c : Thread nD τ).loc main_arg6) (ix2 d f) :=
  (congrFun (downArr_eq m c) (ix2 d f)).trans (truncf_apply _ _ _)

end AtIdeal

end Cert.GatedMlp

end
-- ==== Proof.ScratchFold.lean ====
/-
  The scratch over the sixteen feature tiles of one token block. Grid point t = 16 q + s works on token block q and
  feature tile s. The scratch is reset at s = 0 and takes one addend per tile, so after point 16 q + s it holds, at
  (token r, feature d), the sum over the tiles 0 .. s of
      sum over the tile's 512 hidden features f of  gated(token 256 q + r; feature f) * W_down[d, f],
  and after the last tile the sum over all 8192 hidden features.
-/
import proofs.«126605_j3994319585427_1_alg».proof.Proof.CasePieces
import proofs.«126605_j3994319585427_1_alg».proof.Proof.TileAccum
import proofs.«126605_j3994319585427_1_alg».proof.Proof.BlockReads

set_option maxRecDepth 16384

noncomputable section

open scoped BigOperators

namespace Cert.GatedMlp

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

theorem gridN : cfg0.N = 256 := N_0

/-- The body's update of the scratch at grid point `t`, over what the scratch held. -/
def addTile (c : Dev nD) (t : Fin cfg0.N) (acc : Vec Ideal S256x2048 .f32) : Vec Ideal S256x2048 .f32 :=
  k0_pay1 (F := Ideal) (k0_pay5 (iblk m c 0 t) (iblk m c 2 t))
    (k0_pay6 (iblk m c 0 t) (iblk m c 1 t) (iblk m c 2 t) (iblk m c 3 t) (iblk m c 4 t)) (iblk m c 5 t) (iblk m c 6 t) (iblk m c 7 t) acc

/-- The scratch after position `n`. -/
def scr (c : Dev nD) (n : ℕ) (hn : n < cfg0.N) : Vec Ideal S256x2048 .f32 := (outsAt0 m c n hn).2

/-- At a first tile the scratch is the update of the reset block. -/
theorem scr_first (c : Dev nD) (t : Fin cfg0.N) (h0 : t.val % 16 = 0) :
    scr m c t.val t.isLt = addTile m c t (k0_pay3 (F := Ideal)) := by
  have h1 : ¬t.val % 16 = 15 := by omega
  unfold scr addTile
  rw [outsAt0_A m c t h0 h1]
  dsimp only
  exact scratch_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t)

/-- At every other tile it is the update of what the point before left. -/
theorem scr_step (c : Dev nD) (t : Fin cfg0.N) (h0 : ¬t.val % 16 = 0) :
    scr m c t.val t.isLt = addTile m c t (scr m c (t.val - 1) (Nat.lt_of_le_of_lt (Nat.sub_le _ _) t.isLt)) := by
  unfold scr addTile
  by_cases h1 : t.val % 16 = 15
  · rw [outsAt0_C m c t h0 h1]
    dsimp only
    exact scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1)
      (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2
  · rw [outsAt0_B m c t h0 h1]
    dsimp only
    exact scratch_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) (fun h => h1 ((hcond0_1 t).mp h))
      (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-- At the last tile the output block is the token block plus the scratch that point leaves. -/
theorem out_at_last (c : Dev nD) (t : Fin cfg0.N) (h1 : t.val % 16 = 15) :
    (outsAt0 m c t.val t.isLt).1 = k0_pay2 (F := Ideal) (k0_pay4 (iblk m c 0 t)) (scr m c t.val t.isLt) := by
  have h0 : ¬t.val % 16 = 0 := by omega
  rw [scr_step m c t h0]
  unfold scr addTile
  rw [outsAt0_C m c t h0 h1]
  dsimp only
  exact out_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2

/-! ## One tile's addend -/

/-- The addend of grid point `n` at (token `r` of its block, feature `d`), over the point's blocks; zero past the grid. -/
def addendAt (c : Dev nD) (n : ℕ) (r : Fin 256) (d : Fin 2048) : EReal :=
  if h : n < cfg0.N then
    ∑ f' : Fin 512,
      gated (matRow (tokBlk m c ⟨n, h⟩) r) (matRow (attBlk m c ⟨n, h⟩) r) (matRow (gamBlk m c ⟨n, h⟩) 0) (matFn (facBlk m c ⟨n, h⟩))
        (matCol (corBlk m c ⟨n, h⟩) f') (matRow (gateBlk m c ⟨n, h⟩) f') (matRow (upBlk m c ⟨n, h⟩) f')
        * downBlk m c ⟨n, h⟩ (ix2 d f')
  else 0

/-- The same as a function of a block index. -/
def addend (c : Dev nD) (n : ℕ) (i : S256x2048.Idx) : EReal :=
  addendAt m c n ⟨(i 0).val, (i 0).isLt⟩ ⟨(i 1).val, (i 1).isLt⟩

/-- The update adds the point's addend. -/
theorem addTile_apply (c : Dev nD) (t : Fin cfg0.N) (acc : Vec Ideal S256x2048 .f32) (i : S256x2048.Idx) :
    addTile m c t acc i = acc i + addend m c t.val i := by
  obtain ⟨r, d, rfl⟩ : ∃ (r : Fin 256) (d : Fin 2048), i = ix2 r d := ⟨i 0, i 1, eq_ix2 i⟩
  unfold addTile addend addendAt
  rw [dif_pos t.isLt]
  exact accumBlock_apply (iblk m c 0 t) (iblk m c 1 t) (iblk m c 2 t) (iblk m c 3 t) (iblk m c 4 t) (iblk m c 5 t) (iblk m c 6 t)
    (iblk m c 7 t) acc r d

/-! ## The fold -/

/-- After point `t` the scratch holds the sum of the addends of the points of `t`'s token block up to `t`. -/
theorem scr_eq_sum (c : Dev nD) (t : Fin cfg0.N) (i : S256x2048.Idx) :
    scr m c t.val t.isLt i = 0 + ∑ s ∈ Finset.range (t.val % 16 + 1), addend m c (16 * (t.val / 16) + s) i := by
  have hN : cfg0.N = 256 := N_0
  have htl : t.val < 256 := lt_of_lt_of_eq t.isLt hN
  have h' : 16 * (t.val / 16) + t.val % 16 < cfg0.N := lt_of_lt_of_eq (by omega : 16 * (t.val / 16) + t.val % 16 < 256) hN.symm
  rw [Pipeline.eq_accAt_of_mod (fun n h => scr m c n h) 16
    (fun n h => addTile m c ⟨n, h⟩ (k0_pay3 (F := Ideal)))
    (fun n h acc => addTile m c ⟨n, h⟩ acc)
    (fun n h hm => scr_first m c ⟨n, h⟩ hm)
    (fun n h hne => scr_step m c ⟨n + 1, h⟩ hne)
    (by norm_num) t.val t.isLt h']
  exact Pipeline.accAt_add_apply
    (fun n h => addTile m c ⟨n, h⟩ (k0_pay3 (F := Ideal)))
    (fun n h acc => addTile m c ⟨n, h⟩ acc) (fun _ => (0 : EReal)) (fun n i => addend m c n i) (16 * (t.val / 16)) 15
    (fun h i => by rw [addTile_apply, resetBlock_apply])
    (fun n h acc i _ _ => addTile_apply m c ⟨n, h⟩ acc i)
    (t.val % 16) (by omega) h' i

/-! ## The addend over the arrays -/

/-- The addend of point 16 q + s at token r of block q: tile s of the hidden features, over the arrays. -/
theorem addendAt_arrays (c : Dev nD) (q s : ℕ) (hq : q < 16) (hs : s < 16) (r : Fin 256) (d : Fin 2048) :
    addendAt m c (16 * q + s) r d
      = ∑ f' : Fin 512,
          gated (matRow (tokArr m c) (rowIdx q r)) (matRow (attArr m c) (rowIdx q r)) (matRow (gamArr m c) 0) (matFn (facArr m c))
            (matCol (corArr m c) (tileIdx s f')) (matRow (gateArr m c) (tileIdx s f')) (matRow (upArr m c) (tileIdx s f'))
            * downArr m c (ix2 d (tileIdx s f')) := by
  have hN : cfg0.N = 256 := N_0
  have hn : 16 * q + s < cfg0.N := lt_of_lt_of_eq (by omega : 16 * q + s < 256) hN.symm
  have eq : (16 * q + s) / 16 = q := by omega
  have es : (16 * q + s) % 16 = s := by omega
  unfold addendAt
  rw [dif_pos hn]
  refine Finset.sum_congr rfl fun f' _ => ?_
  have e0 : matRow (tokBlk m c ⟨16 * q + s, hn⟩) r = matRow (tokArr m c) (rowIdx q r) :=
    funext fun d' => (tokBlk_apply m c ⟨16 * q + s, hn⟩ r d').trans (by rw [show (⟨16 * q + s, hn⟩ : Fin cfg0.N).val / 16 = q from eq])
  have e1 : matRow (attBlk m c ⟨16 * q + s, hn⟩) r = matRow (attArr m c) (rowIdx q r) :=
    funext fun d' => (attBlk_apply m c ⟨16 * q + s, hn⟩ r d').trans (by rw [show (⟨16 * q + s, hn⟩ : Fin cfg0.N).val / 16 = q from eq])
  have e2 : matRow (gamBlk m c ⟨16 * q + s, hn⟩) 0 = matRow (gamArr m c) 0 :=
    funext fun d' => gamBlk_apply m c ⟨16 * q + s, hn⟩ d'
  have e3 : matFn (facBlk m c ⟨16 * q + s, hn⟩) = matFn (facArr m c) :=
    funext fun p => funext fun k => facBlk_apply m c ⟨16 * q + s, hn⟩ p k
  have e4 : matCol (corBlk m c ⟨16 * q + s, hn⟩) f' = matCol (corArr m c) (tileIdx s f') :=
    funext fun k => (corBlk_apply m c ⟨16 * q + s, hn⟩ k f').trans (by rw [show (⟨16 * q + s, hn⟩ : Fin cfg0.N).val % 16 = s from es])
  have e5 : matRow (gateBlk m c ⟨16 * q + s, hn⟩) f' = matRow (gateArr m c) (tileIdx s f') :=
    funext fun d' => (gateBlk_apply m c ⟨16 * q + s, hn⟩ f' d').trans (by rw [show (⟨16 * q + s, hn⟩ : Fin cfg0.N).val % 16 = s from es])
  have e6 : matRow (upBlk m c ⟨16 * q + s, hn⟩) f' = matRow (upArr m c) (tileIdx s f') :=
    funext fun d' => (upBlk_apply m c ⟨16 * q + s, hn⟩ f' d').trans (by rw [show (⟨16 * q + s, hn⟩ : Fin cfg0.N).val % 16 = s from es])
  have e7 : downBlk m c ⟨16 * q + s, hn⟩ (ix2 d f') = downArr m c (ix2 d (tileIdx s f')) :=
    (downBlk_apply m c ⟨16 * q + s, hn⟩ d f').trans (by rw [show (⟨16 * q + s, hn⟩ : Fin cfg0.N).val % 16 = s from es])
  rw [e0, e1, e2, e3, e4, e5, e6, e7]

end Cert.GatedMlp

end
-- ==== Proof.KernelArray.lean ====
/-
  The array the call leaves, and the program's result. The output window writes back only at the last feature tile
  of each token block (points 16 q + 15), and there its block is the token block plus the scratch, which by then
  holds the sum over all sixteen tiles: rows 256 q .. 256 q + 255 of the token-major result. The sixteen blocks tile
  the array, so it ends at the token-major result; the last host operation re-lays it as [batch, position, feature].
-/
import proofs.«126605_j3994319585427_1_alg».proof.Proof.ScratchFold

set_option maxRecDepth 16384

noncomputable section

open scoped BigOperators

namespace Cert.GatedMlp

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The output window's block index at grid point t is (t / 16, 0): decided over the grid. -/
theorem idx_out : ∀ t : Fin cfg0.N, win0_8.index t (0 : Fin 2) = t.val / 16 ∧ win0_8.index t (1 : Fin 2) = 0 :=
  (by decide +kernel : ∀ t : Fin grid0.N, win0_8.index t (0 : Fin 2) = t.val / 16 ∧ win0_8.index t (1 : Fin 2) = 0)

/-- The token-major result over the arrays the call reads. -/
def flatOut (c : Dev nD) : Vec Ideal S4096x2048 .f32 :=
  flatResult (tokArr m c) (attArr m c) (gamArr m c) (facArr m c) (corArr m c) (gateArr m c) (upArr m c) (downArr m c)

/-- What a last-tile point writes back is its block of the token-major result. -/
theorem flushed_eq (c : Dev nD) (t : Fin cfg0.N) (hf : (cfg0.win 8).flush t = true) :
    (dats m 0 c).flushed 8 t = ((cfg0.win 8).blk t).view.read (Elt Ideal) (flatOut m c) := by
  have h15 : t.val % 16 = 15 := (flush0_8 t).mp hf
  have htl : t.val < 256 := lt_of_lt_of_eq t.isLt gridN
  show (cfg0.win 8).cut (grid0.coords t) ((dats m 0 c).after 8 t) = _
  rw [after0_8, out_at_last m c t h15]
  obtain ⟨e0, e1⟩ := idx_out t
  funext j
  obtain ⟨r, d, rfl⟩ : ∃ (r : Fin 256) (d : Fin 2048), j = ix2 r d := ⟨j 0, j 1, eq_ix2 j⟩
  show k0_pay2 (F := Ideal) (k0_pay4 (iblk m c 0 t)) (scr m c t.val t.isLt) (ix2 r d)
    = flatOut m c (((cfg0.win 8).blk t).view.emb (ix2 r d))
  have hemb : ((cfg0.win 8).blk t).view.emb (ix2 r d) = (ix2 (rowIdx (t.val / 16) r) d : S4096x2048.Idx) := by
    funext a; apply Fin.ext
    match a with
    | ⟨0, _⟩ =>
      show win0_8.index t (0 : Fin 2) * 256 + 1 * r.val = (rowIdx (t.val / 16) r).val
      rw [e0, rowIdx_val (by omega)]; omega
    | ⟨1, _⟩ =>
      show win0_8.index t (1 : Fin 2) * 2048 + 1 * d.val = d.val
      rw [e1]; omega
  rw [hemb, outBlock_apply, tokenBlock_apply, scr_eq_sum m c t (ix2 r d), h15, zero_add]
  unfold flatOut
  rw [flatResult_ix2, rowOut_tiles]
  refine congrArg₂ (· + ·) (tokBlk_apply m c t r d) (Finset.sum_congr rfl fun s hs => ?_)
  have hs' : s < 16 := Finset.mem_range.mp hs
  show addendAt m c (16 * (t.val / 16) + s) r d = _
  rw [addendAt_arrays m c (t.val / 16) s (by omega) hs' r d]

/-- An index of the array is in point t's block iff each coordinate is in the block's range. -/
theorem mem_outBlk (t : Fin cfg0.N) (i : S4096x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v8).slice (win0_8.rect t)).set ↔ _
  rw [View.set_slice_whole, Rect.mem_set_unit]
  exact Iff.rfl

/-- The array after the call: the token-major result (token n's row is written back at point 16 (n / 256) + 15). -/
theorem final_out (c : Dev nD) : (dats m 0 c).arrAt 8 cfg0.N = flatOut m c :=
  (dats m 0 c).arrAt_eq_of_cover 8 (flatOut m c) (flushed_eq m c) fun i => by
    have h0 : (i 0).val < 4096 := (i 0).isLt
    have h1 : (i 1).val < 2048 := (i 1).isLt
    have hlt : 16 * ((i 0).val / 256) + 15 < cfg0.N := lt_of_lt_of_eq (by omega : 16 * ((i 0).val / 256) + 15 < 256) gridN.symm
    refine ⟨⟨16 * ((i 0).val / 256) + 15, hlt⟩, (flush0_8 _).mpr (by show (16 * ((i 0).val / 256) + 15) % 16 = 15; omega), ?_⟩
    rw [mem_outBlk]
    obtain ⟨e0, e1⟩ := idx_out ⟨16 * ((i 0).val / 256) + 15, hlt⟩
    have e0' : win0_8.index ⟨16 * ((i 0).val / 256) + 15, hlt⟩ (0 : Fin 2) = (i 0).val / 256 := by rw [e0]; show (16 * ((i 0).val / 256) + 15) / 16 = _; omega
    intro a
    match a with
    | ⟨0, _⟩ =>
      show win0_8.index ⟨16 * ((i 0).val / 256) + 15, hlt⟩ (0 : Fin 2) * 256 ≤ (i 0).val
        ∧ (i 0).val < win0_8.index ⟨16 * ((i 0).val / 256) + 15, hlt⟩ (0 : Fin 2) * 256 + 256
      rw [e0']; omega
    | ⟨1, _⟩ =>
      show win0_8.index ⟨16 * ((i 0).val / 256) + 15, hlt⟩ (1 : Fin 2) * 2048 ≤ (i 1).val
        ∧ (i 1).val < win0_8.index ⟨16 * ((i 0).val / 256) + 15, hlt⟩ (1 : Fin 2) * 2048 + 2048
      rw [e1]; omega

/-! ## The last host operation, and the run -/

/-- The re-laid array at (batch b, position s, feature d) is the token-major one at (2048 b + s, d). -/
theorem relaidBack_apply (G : Vec Ideal S4096x2048 .f32) (b : Fin 2) (s d : Fin 2048) :
    shapeCast S2x2048x2048 G shapeCasts_S4096x2048_S2x2048x2048 (ix3 b s d) = G (ix2 (tokenIdx b s) d) :=
  shapeCast_apply G shapeCasts_S4096x2048_S2x2048x2048 (ix3 b s d) (ix2 (tokenIdx b s) d) (by
    rw [Shape.rowMajor_val_two, Shape.rowMajor_val_three]
    show (tokenIdx b s).val * 2048 + d.val = (b.val * 2048 + s.val) * 2048 + d.val
    rw [tokenIdx_val]; ring)

/-- The program's result buffer after the lines that follow the call: the token-major result, re-laid. -/
theorem tail_eq (c : Dev nD) :
    Pipeline.afterTail₀ cfgs (dats m) 0 (V0 m) [hostOps1] c main_v9
      = shapeCast S2x2048x2048 (flatOut m c) shapeCasts_S4096x2048_S2x2048x2048 := by
  unfold Pipeline.afterTail₀
  show StableHlo.after hostOps1 _ (Proc.devRef .tc main_v9) = _
  after_results
  have hw : Pipeline.withArrays (cfgs 0).spec c (V0 m c) (fun w => (dats m 0 c).arrAt w (cfgs 0).N) (Proc.devRef .tc main_v8)
      = flatOut m c :=
    (Pipeline.withArrays_arr spec0 launch0.win.arr_inj c (V0 m c) (fun w => (dats m 0 c).arrAt w cfg0.N) 8).trans (final_out m c)
  rw [hw]
  rfl

/-- The token-major result over the call's arrays, at token (b, s), is the result over the arguments at (b, s). -/
theorem flatOut_apply (c : Dev nD) (b : Fin 2) (s d : Fin 2048) :
    flatOut m c (ix2 (tokenIdx b s) d) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix3 b s d) := by
  unfold flatOut
  rw [flatResult_ix2, result_ix3]
  have e0 : matRow (tokArr m c) (tokenIdx b s) = fun d' => m ((c.tc : Thread nD τ).loc main_arg0) (ix3 b s d') :=
    funext fun d' => tokArr_apply m c b s d'
  have e1 : matRow (attArr m c) (tokenIdx b s) = fun d' => m ((c.tc : Thread nD τ).loc main_arg1) (ix3 b s d') :=
    funext fun d' => attArr_apply m c b s d'
  have e2 : matRow (gamArr m c) 0 = fun d' => m ((c.tc : Thread nD τ).loc main_arg7) (ix1 d') :=
    funext fun d' => gamArr_apply m c d'
  have e3 : matFn (facArr m c) = matFn (m ((c.tc : Thread nD τ).loc main_arg2)) := funext fun p => funext fun q => facArr_apply m c p q
  have e4 : matFn (corArr m c) = matFn (m ((c.tc : Thread nD τ).loc main_arg3)) := funext fun p => funext fun q => corArr_apply m c p q
  have e5 : matFn (gateArr m c) = matFn (m ((c.tc : Thread nD τ).loc main_arg4)) := funext fun p => funext fun q => gateArr_apply m c p q
  have e6 : matFn (upArr m c) = matFn (m ((c.tc : Thread nD τ).loc main_arg5)) := funext fun p => funext fun q => upArr_apply m c p q
  have e7 : matFn (downArr m c) = matFn (m ((c.tc : Thread nD τ).loc main_arg6)) := funext fun p => funext fun q => downArr_apply m c p q
  rw [e0, e1, e2, e3, e4, e5, e6, e7]

/-- So the result buffer ends at the result of the argument arrays. -/
theorem tail_result (c : Dev nD) :
    Pipeline.afterTail₀ cfgs (dats m) 0 (V0 m) [hostOps1] c main_v9 = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [tail_eq]
  funext i
  obtain ⟨b, s, d, rfl⟩ : ∃ (b : Fin 2) (s d : Fin 2048), i = ix3 b s d := ⟨i 0, i 1, i 2, eq_ix3 i⟩
  rw [relaidBack_apply, flatOut_apply]

/-- The kernel program's run, read: the result buffer at the result of the arguments, the arguments unchanged. -/
theorem run : θ_run defs (onTc (τ := τ) (main (F := Ideal))) ⟨m, fun _ => 0, ρ⟩ fun r => ∀ c : Dev nD,
      r.2.mem ((c.tc : Thread nD τ).loc main_v9) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v9 (Pipeline.mem_restRefs_of main_v9 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.GatedMlp

end
-- ==== Proof.lean ====
/- The proof of `Cert.Claim`: a gated feed-forward block with a low-rank, attention-modulated correction of its gate,
   one token row at a time (Proof/RowSpec.lean).
   The kernel normalises a block of 256 tokens, and for each of the sixteen tiles of 512 hidden features forms the gate
   and up projections, the low-rank correction, the gated activation, and adds the tile's part of the down
   projection into a scratch; after the last tile it writes the token block plus the scratch. The reference computes
   the same quantities over whole arrays. Over the extended reals the two agree because a sum over the 8192 hidden
   features is the sum over the sixteen tiles of the tiles' sums (Proof/RowSpec.lean `sum_tiles`); every other step
   is the same expression on both sides, a change of float format being the identity and the kernel's logistic being
   1 / (1 + exp (-x)). No finiteness of the inputs is used.
   Modules: RowSpec, ResultArray (the specification); RefIsSpec (the reference is the specification, stage by stage);
   TilePayload, TileAccum (the kernel body's arithmetic at an index); CasePieces (what each control case leaves);
   BlockReads (blocks in their arrays, the arrays from the arguments); ScratchFold (the scratch as a sum over tiles);
   KernelArray (the array the call leaves, the last re-laying, the run). The frames of the two kernel programs are the
   generated ones; the reference's frame is its generated run with the result dropped. -/
import proofs.«126605_j3994319585427_1_alg».proof.Defs
import proofs.«126605_j3994319585427_1_alg».proof.Proof.Gen.Kernel
import proofs.«126605_j3994319585427_1_alg».proof.Proof.Gen.Kernel.Skeleton
import proofs.«126605_j3994319585427_1_alg».proof.Proof.Gen.Kernel.Launch
import proofs.«126605_j3994319585427_1_alg».proof.Proof.Gen.Kernel.Points
import proofs.«126605_j3994319585427_1_alg».proof.Proof.Gen.Kernel.Frame
import proofs.«126605_j3994319585427_1_alg».proof.Proof.Gen.KernelIdeal
import proofs.«126605_j3994319585427_1_alg».proof.Proof.Gen.KernelIdeal.Skeleton
import proofs.«126605_j3994319585427_1_alg».proof.Proof.Gen.KernelIdeal.Launch
import proofs.«126605_j3994319585427_1_alg».proof.Proof.Gen.KernelIdeal.Points
import proofs.«126605_j3994319585427_1_alg».proof.Proof.Gen.KernelIdeal.Frame
import proofs.«126605_j3994319585427_1_alg».proof.Proof.Gen.ReferenceIdeal
import proofs.«126605_j3994319585427_1_alg».proof.Proof.Gen.Pre_finite_inputs
import proofs.«126605_j3994319585427_1_alg».proof.Proof.Gen.ReferenceIdeal.Run
import proofs.«126605_j3994319585427_1_alg».proof.Proof.Gen.ReferenceIdeal.Read
import proofs.«126605_j3994319585427_1_alg».proof.Proof.RefIsSpec
import proofs.«126605_j3994319585427_1_alg».proof.Proof.KernelArray
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at `result` of the argument arrays: the kernel by its run read through the scratch's sum
    over the tiles, the reference stage by stage; the arguments agree. -/
theorem algebraic : Cert.algebraic_KernelIdeal_ReferenceIdeal := by
  intro m ρ m' ρ' _ hagree
  refine ⟨fun c => Cert.GatedMlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.GatedMlp.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v26_eq, Cert.GatedMlp.reference_eq_result, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
